-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1024x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S1024x64 : Shape := ⟨2, ![1024, 64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S65536x64 .f32) (main_arg1 : FVec F S1024x64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S65536x64 : Shape := ⟨2, ![65536, 64]⟩
abbrev S1024x64 : Shape := ⟨2, ![1024, 64]⟩
abbrev S64x65536 : Shape := ⟨2, ![64, 65536]⟩
abbrev S1x1 : Shape := ⟨2, ![1, 1]⟩
abbrev S64x2048 : Shape := ⟨2, ![64, 2048]⟩
abbrev S1024x66 : Shape := ⟨2, ![1024, 66]⟩
abbrev S1024 : Shape := ⟨1, ![1024]⟩
abbrev S1024x1 : Shape := ⟨2, ![1024, 1]⟩
abbrev S2x2048 : Shape := ⟨2, ![2, 2048]⟩
abbrev S66x2048 : Shape := ⟨2, ![66, 2048]⟩
abbrev S256x66 : Shape := ⟨2, ![256, 66]⟩
abbrev S256x2048 : Shape := ⟨2, ![256, 2048]⟩
abbrev S8x2048 : Shape := ⟨2, ![8, 2048]⟩
abbrev S2048 : Shape := ⟨1, ![2048]⟩
abbrev S1x2048 : Shape := ⟨2, ![1, 2048]⟩
abbrev S1x1x2048 : Shape := ⟨3, ![1, 1, 2048]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S64x65536, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S64x2048, .f32⟩
  | .local _ .vmem, ⟨1, _⟩ => ⟨S64x2048, .f32⟩
  | .local _ .vmem, ⟨2, _⟩ => ⟨S1024x64, .f32⟩
  | .local _ .vmem, ⟨3, _⟩ => ⟨S1x1, .f32⟩
  | .local _ .vmem, ⟨4, _⟩ => ⟨S1024x66, .bf16⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S65536x64_S64x65536_1_0 : S65536x64.Transposes [1, 0] S64x65536
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  bitsLt_bf16_f32 : FTy.bits .bf16 < FTy.bits .f32
  concatenates_S1024x64_S1024x1_S1024x1_S1024x66_d1 : Shape.Concatenates [S1024x64, S1024x1, S1024x1] S1024x66 1
  inb_S1024x66_S1024x66_0_0 : ∀ a, (![0, 0] : Fin 2 → Nat) a + S1024x66.size a ≤ S1024x66.size a
  h_S1024x66 : 0 < S1024x66.numel
  shapeCasts_S1024x66_S1024x66 : S1024x66.ShapeCasts S1024x66
  packedbf16_S1024x66_S1024x66_0_0 : (Rect.unit (s := S1024x66) ![0, 0] S1024x66.size inb_S1024x66_S1024x66_0_0).PackedRows (EltTy.packing .bf16)
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  concatenates_S64x2048_S2x2048_S66x2048_d0 : Shape.Concatenates [S64x2048, S2x2048] S66x2048 0
  slices_S1024x66_o0_0_S256x66 : S1024x66.Slices ![0, 0] S256x66
  slices_S256x2048_o0_0_S8x2048 : S256x2048.Slices ![0, 0] S8x2048
  slices_S256x2048_o8_0_S8x2048 : S256x2048.Slices ![8, 0] S8x2048
  slices_S256x2048_o16_0_S8x2048 : S256x2048.Slices ![16, 0] S8x2048
  slices_S256x2048_o24_0_S8x2048 : S256x2048.Slices ![24, 0] S8x2048
  slices_S256x2048_o32_0_S8x2048 : S256x2048.Slices ![32, 0] S8x2048
  slices_S256x2048_o40_0_S8x2048 : S256x2048.Slices ![40, 0] S8x2048
  slices_S256x2048_o48_0_S8x2048 : S256x2048.Slices ![48, 0] S8x2048
  slices_S256x2048_o56_0_S8x2048 : S256x2048.Slices ![56, 0] S8x2048
  slices_S256x2048_o64_0_S8x2048 : S256x2048.Slices ![64, 0] S8x2048
  slices_S256x2048_o72_0_S8x2048 : S256x2048.Slices ![72, 0] S8x2048
  slices_S256x2048_o80_0_S8x2048 : S256x2048.Slices ![80, 0] S8x2048
  slices_S256x2048_o88_0_S8x2048 : S256x2048.Slices ![88, 0] S8x2048
  slices_S256x2048_o96_0_S8x2048 : S256x2048.Slices ![96, 0] S8x2048
  slices_S256x2048_o104_0_S8x2048 : S256x2048.Slices ![104, 0] S8x2048
  slices_S256x2048_o112_0_S8x2048 : S256x2048.Slices ![112, 0] S8x2048
  slices_S256x2048_o120_0_S8x2048 : S256x2048.Slices ![120, 0] S8x2048
  slices_S256x2048_o128_0_S8x2048 : S256x2048.Slices ![128, 0] S8x2048
  slices_S256x2048_o136_0_S8x2048 : S256x2048.Slices ![136, 0] S8x2048
  slices_S256x2048_o144_0_S8x2048 : S256x2048.Slices ![144, 0] S8x2048
  slices_S256x2048_o152_0_S8x2048 : S256x2048.Slices ![152, 0] S8x2048
  slices_S256x2048_o160_0_S8x2048 : S256x2048.Slices ![160, 0] S8x2048
  slices_S256x2048_o168_0_S8x2048 : S256x2048.Slices ![168, 0] S8x2048
  slices_S256x2048_o176_0_S8x2048 : S256x2048.Slices ![176, 0] S8x2048
  slices_S256x2048_o184_0_S8x2048 : S256x2048.Slices ![184, 0] S8x2048
  slices_S256x2048_o192_0_S8x2048 : S256x2048.Slices ![192, 0] S8x2048
  slices_S256x2048_o200_0_S8x2048 : S256x2048.Slices ![200, 0] S8x2048
  slices_S256x2048_o208_0_S8x2048 : S256x2048.Slices ![208, 0] S8x2048
  slices_S256x2048_o216_0_S8x2048 : S256x2048.Slices ![216, 0] S8x2048
  slices_S256x2048_o224_0_S8x2048 : S256x2048.Slices ![224, 0] S8x2048
  slices_S256x2048_o232_0_S8x2048 : S256x2048.Slices ![232, 0] S8x2048
  slices_S256x2048_o240_0_S8x2048 : S256x2048.Slices ![240, 0] S8x2048
  slices_S256x2048_o248_0_S8x2048 : S256x2048.Slices ![248, 0] S8x2048
  slices_S1024x66_o256_0_S256x66 : S1024x66.Slices ![256, 0] S256x66
  slices_S1024x66_o512_0_S256x66 : S1024x66.Slices ![512, 0] S256x66
  slices_S1024x66_o768_0_S256x66 : S1024x66.Slices ![768, 0] S256x66
  reduces_S8x2048_S2048 : S8x2048.Reduces [0] S2048
  shapeCasts_S2048_S1x2048 : S2048.ShapeCasts S1x2048
  reduces_S64x2048_S2048 : S64x2048.Reduces [0] S2048
  shapeCasts_S1x2048_S1x1x2048 : S1x2048.ShapeCasts S1x1x2048
  reduces_S1x1x2048_S1 : S1x1x2048.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S256x66_S66x2048_S256x2048_1_0_0_1_n_n_wf : DotDims.WF S256x66 S66x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x65536.size a
  hwx0_0 : ∀ i : grid0.Coords, EltTy.bits .f32 = 32 ∨ (Rect.block (s := S64x65536) S64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S256x66_S66x2048_S256x2048_1_0_0_1_n_n : DotDims S256x66 S66x2048 S256x2048 where
  lhsContracting := [1]
  rhsContracting := [0]
  lhsNonContracting := [0]
  rhsNonContracting := [1]
  lhsBatch := []
  rhsBatch := []
  wf := dot_S256x66_S66x2048_S256x2048_1_0_0_1_n_n_wf

abbrev win0_0 : Pipeline.Window sig grid0 :=
  Pipeline.Window.ofSpec (Memref.whole main_v0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x64 : Shape := ⟨2, ![65536, 64]⟩
abbrev S1024x64 : Shape := ⟨2, ![1024, 64]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S64x1024 : Shape := ⟨2, ![64, 1024]⟩
abbrev S65536x1024 : Shape := ⟨2, ![65536, 1024]⟩

abbrev nBuf : Space → Nat
  | .hbm => 25
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S65536x64, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S64x1024, .f32⟩
  | .hbm, ⟨11, _⟩ => ⟨S65536x1024, .f32⟩
  | .hbm, ⟨12, _⟩ => ⟨S_, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S1024x64_S1024_d1 : S1024x64.ReducesTo [1] S1024
  bcast_S1024_S1x1024_1 : S1024.BroadcastsInDim S1x1024 (![1] : Fin 1 → Fin S1x1024.rank)
  transposes_S1024x64_S64x1024_1_0 : S1024x64.Transposes [1, 0] S64x1024
  bcast_S_S65536x1024 : S_.BroadcastsInDim S65536x1024 (![] : Fin 0 → Fin S65536x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  reducesTo_S65536x1024_S65536_d1 : S65536x1024.ReducesTo [1] S65536
  reducesTo_S65536_S_d0 : S65536.ReducesTo [0] S_
  dot_S65536x64_S64x1024_S65536x1024_1_0_0_1_n_n_wf : DotDims.WF S65536x64 S64x1024 S65536x1024 [1] [0] [0] [1] [] []

variable [Facts₀]

def dot_S65536x64_S64x1024_S65536x1024_1_0_0_1_n_n : DotDims S65536x64 S64x1024 S65536x1024 where
  lhsContracting := [1]
  rhsContracting := [0]
  lhsNonContracting := [0]
  rhsNonContracting := [1]
  lhsBatch := []
  rhsBatch := []
  wf := dot_S65536x64_S64x1024_S65536x1024_1_0_0_1_n_n_wf

class Facts : Prop extends Facts₀ where

variable [Facts]
-- ==== Proof.Spec.lean ====
/-
  The vector-quantisation compression loss, over the reals: for N = 65536 rows of dimension 64 and K = 1024
  centres, the mean over the rows of the least squared distance from the row to a centre, the squared
  distance written by the expansion |e|^2 - 2 e.c + |c|^2.

  Two arrangements of the same number are named here. `loss` is the one a row-by-row reading gives: per
  row, the least over the centres of the expansion. `lossAug` is the one a blocked reading gives: the rows
  are walked in 32 steps of 2048; each centre is extended by two entries, its squared norm and the
  difference of that squared norm with itself (zero), each row by two entries equal to one, so that the
  extended inner product of the centre doubled and negated with the row is |c|^2 - 2 e.c; the least of that
  over the centres, plus |e|^2, is summed over the step's rows, and the steps are summed. The two agree
  because adding |e|^2 commutes with taking the least over the centres, and a sum over 32 x 2048 is a sum
  over 65536.
-/
import Idealize.ShloMosaic.PureOps.Ideal
import Idealize.ShloMosaic.Lib.ValueIdx

noncomputable section

namespace Cert.VQ

open Idealize.ShloMosaic

/-- The rows: 65536 points of dimension 64. -/
abbrev Rows := Fin 65536 → Fin 64 → ℝ
/-- The centres: 1024 points of dimension 64. -/
abbrev Centres := Fin 1024 → Fin 64 → ℝ

/-- The squared norm of point `i` of a family of points. -/
def sqNorm {ι : Type} (a : ι → Fin 64 → ℝ) (i : ι) : ℝ := ∑ d : Fin 64, a i d * a i d

/-- The inner product of row `n` with centre `k`. -/
def inner (e : Rows) (c : Centres) (n : Fin 65536) (k : Fin 1024) : ℝ := ∑ d : Fin 64, e n d * c k d

/-- The squared distance from row `n` to centre `k`, by the expansion. -/
def dist (e : Rows) (c : Centres) (n : Fin 65536) (k : Fin 1024) : ℝ :=
  sqNorm e n - 2 * inner e c n k + sqNorm c k

/-- The least squared distance from row `n` to a centre. -/
def least (e : Rows) (c : Centres) (n : Fin 65536) : ℝ :=
  Finset.univ.inf' ⟨0, Finset.mem_univ _⟩ (dist e c n)

/-- The loss: the mean over the rows of the least squared distance to a centre. -/
def loss (e : Rows) (c : Centres) : ℝ := (∑ n : Fin 65536, least e c n) / 65536

/-- A centre extended to 66 entries: minus twice its coordinates, then its squared norm, then the difference
    of its squared norm with itself. -/
def centreAug (c : Centres) (k : Fin 1024) (q : Fin 66) : ℝ :=
  if h : q.val < 64 then -2 * c k ⟨q.val, h⟩ else if q.val = 64 then sqNorm c k else sqNorm c k - sqNorm c k

/-- A row extended to 66 entries: its coordinates, then two ones. -/
def rowAug (e : Rows) (n : Fin 65536) (q : Fin 66) : ℝ :=
  if h : q.val < 64 then e n ⟨q.val, h⟩ else 1

/-- The least over the centres of the extended inner product with row `n`: the least of |c|^2 - 2 e.c. -/
def leastAug (e : Rows) (c : Centres) (n : Fin 65536) : ℝ :=
  Finset.univ.inf' ⟨0, Finset.mem_univ _⟩ (fun k : Fin 1024 => ∑ q : Fin 66, centreAug c k q * rowAug e n q)

/-- Row `j` of step `t`: the rows are walked in 32 steps of 2048. -/
def rowOf (t : Fin 32) (j : Fin 2048) : Fin 65536 := ⟨2048 * t.val + j.val, by omega⟩

/-- What step `t` contributes: over its 2048 rows, the least extended inner product plus the row's squared norm. -/
def stepSum (e : Rows) (c : Centres) (t : Fin 32) : ℝ :=
  ∑ j : Fin 2048, (leastAug e c (rowOf t j) + sqNorm e (rowOf t j))

/-- The loss in the blocked arrangement. -/
def lossAug (e : Rows) (c : Centres) : ℝ := (∑ t : Fin 32, stepSum e c t) / 65536

end Cert.VQ

end
-- ==== Proof.Consts.lean ====
/-
  The float constants the two programs spell, as the extended reals their bit patterns denote: zero, two,
  minus two, one (in the sixteen-bit format), 65536 and plus infinity.
-/
import Idealize.ShloMosaic.PureOps.Ideal

noncomputable section

namespace Cert.VQ.Consts

open Idealize.ShloMosaic

/-- The zero pattern denotes 0. -/
theorem ofBits_zero : Ideal.ofBits .f32 0x00000000#32 = 0 := by
  simp [Ideal.ofBits, Ideal.ieee]

/-- `2.0` denotes the real 2. -/
theorem ofBits_two : Ideal.ofBits .f32 0x40000000#32 = ((2 : ℝ) : EReal) := by
  simp [Ideal.ofBits, Ideal.ieee, -EReal.coe_mul]; norm_num

/-- `-2.0` denotes the real -2. -/
theorem ofBits_neg_two : Ideal.ofBits .f32 0xC0000000#32 = ((-2 : ℝ) : EReal) := by
  simp [Ideal.ofBits, Ideal.ieee, -EReal.coe_mul]; norm_num

/-- `1.0` in the sixteen-bit format denotes the real 1. -/
theorem ofBits_one_bf16 : Ideal.ofBits .bf16 0x3F80#16 = ((1 : ℝ) : EReal) := by
  simp [Ideal.ofBits, Ideal.ieee, -EReal.coe_mul]; norm_num

/-- `65536.0` denotes the real 65536. -/
theorem ofBits_65536 : Ideal.ofBits .f32 0x47800000#32 = ((65536 : ℝ) : EReal) := by
  simp [Ideal.ofBits, Ideal.ieee, -EReal.coe_mul]; norm_num

/-- The infinity pattern denotes the top element. -/
theorem ofBits_inf : Ideal.ofBits .f32 0x7F800000#32 = ⊤ := by
  simp [Ideal.ofBits, Ideal.ieee]

end Cert.VQ.Consts

end
-- ==== Proof.FiniteInputs.lean ====
/-
  The precondition read back: when every entry of the two input arrays has absolute value below plus
  infinity, every entry is a real number. An extended real whose absolute value max x (-x) is strictly
  below the top element is neither infinity, hence the cast of its real part; a conjunction of two
  "all entries" tests that came out true had every entry's test true.
-/
import proofs.«123310_g395136991332_cont_8to1_b_1330_16_alg».proof.Proof.Spec
import proofs.«123310_g395136991332_cont_8to1_b_1330_16_alg».proof.Proof.Consts
import proofs.«123310_g395136991332_cont_8to1_b_1330_16_alg».proof.Proof.Gen.Pre_finite_inputs
import Idealize.ShloMosaic.Lib.ReduceAll
import Idealize.ShloMosaic.Lib.ValueIdx
import Idealize.ShloMosaic.PureOps.Ideal.Laws

noncomputable section

namespace Cert.VQ

open Idealize.ShloMosaic Idealize.ShloMosaic.ValueIdx

/-- The scalar shape has one index. -/
instance subsingleton_scalar_idx : Subsingleton Cert.Pre_finite_inputs.S_.Idx :=
  ⟨fun a b => funext fun d => d.elim0⟩

/-- An extended real whose absolute value is strictly below the top element is the cast of a real. -/
theorem coe_toReal_of_abs_lt_top (x : EReal) (h : Ideal.cmp .olt (max x (-x)) ⊤ = 1#1) :
    x = ((x.toReal : ℝ) : EReal) := by
  induction x using EReal.rec with
  | bot => simp [Ideal.cmp] at h
  | top => simp [Ideal.cmp] at h
  | coe r => rw [EReal.toReal_coe]

/-- The test one entry passes, as the comparison of extended reals. -/
theorem entry_test {s : Shape} (x : FVec Ideal s .f32) (i : s.Idx)
    (h : FloatOps.cmpf (F := Ideal) .olt (FloatOps.hostAbsf (x i)) (FloatOps.ofBits .f32 0x7F800000#32) = 1#1) :
    x i = (((x i).toReal : ℝ) : EReal) := by
  refine coe_toReal_of_abs_lt_top (x i) ?_
  rw [← Consts.ofBits_inf]
  exact h

theorem real_of_finite_inputs (x0 : FVec Ideal Cert.Pre_finite_inputs.S65536x64 .f32) (x1 : FVec Ideal Cert.Pre_finite_inputs.S1024x64 .f32)
    (h : Cert.Pre_finite_inputs.fn (F := Ideal) x0 x1 = fun _ => 1#1) :
    (∃ e : Rows, ∀ (a : Fin 65536) (b : Fin 64), x0 (ix2 a b) = ((e a b : ℝ) : EReal))
    ∧ (∃ c : Centres, ∀ (a : Fin 1024) (b : Fin 64), x1 (ix2 a b) = ((c a b : ℝ) : EReal)) := by
  have h' := congrFun h ValueIdx.ix0
  dsimp only [Cert.Pre_finite_inputs.fn] at h'
  obtain ⟨ha, hb⟩ := IntOp.andi_eq_one.1 h'
  refine ⟨⟨fun a b => (x0 (ix2 a b)).toReal, fun a b => ?_⟩, ⟨fun a b => (x1 (ix2 a b)).toReal, fun a b => ?_⟩⟩
  · exact entry_test x0 (ix2 a b) (Host.reduce_andi_all _ _ _ _ _ ha (ix2 a b))
  · exact entry_test x1 (ix2 a b) (Host.reduce_andi_all _ _ _ _ _ hb (ix2 a b))

end Cert.VQ

end
-- ==== Proof.LibERealCast.lean ====
/-
  Real numbers inside the extended reals: a finite sum of reals cast to the extended reals is the cast of
  the sum, and the fold of `min` from the top element over a nonempty finite family of cast reals is the
  cast of the family's least element. With these, a value computed on the extended reals from finite
  entries is read as the cast of the same computation on the reals.
-/
import Idealize.ShloMosaic.PureOps.Ideal

noncomputable section

namespace Cert.ERealCast

/-- A finite sum of cast reals is the cast of the sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The fold of `min` from the top element over a nonempty finite family of cast reals is the cast of the
    family's least element. -/
theorem fold_min_top_coe {ι : Type} (s : Finset ι) (hs : s.Nonempty) (f : ι → ℝ) :
    s.fold min (⊤ : EReal) (fun i => ((f i : ℝ) : EReal)) = ((s.inf' hs f : ℝ) : EReal) := by
  classical
  induction hs using Finset.Nonempty.cons_induction with
  | singleton a => simp
  | cons a s ha hs ih =>
    rw [Finset.fold_cons, ih, Finset.inf'_cons hs]
    first
      | exact (EReal.coe_strictMono.monotone.map_min (a := f a) (b := s.inf' hs f)).symm
      | exact (EReal.coe_strictMono.monotone.map_inf (f a) (s.inf' hs f)).symm

end Cert.ERealCast

end
-- ==== Proof.RefRow.lean ====
/-
  One row of the reference, read on the reals. With every input entry the cast of a real, the squared
  norms and the inner products the reference forms are casts of the real ones, each entry of the
  65536 x 1024 array of expansions |e|^2 - 2 e.c + |c|^2 is the cast of the squared distance, and the
  reduction by minimum over the centres, started at plus infinity, is the cast of the least squared
  distance from that row to a centre.
-/
import proofs.«123310_g395136991332_cont_8to1_b_1330_16_alg».proof.Proof.Spec
import proofs.«123310_g395136991332_cont_8to1_b_1330_16_alg».proof.Proof.LibERealCast
import proofs.«123310_g395136991332_cont_8to1_b_1330_16_alg».proof.Proof.Consts
import proofs.«123310_g395136991332_cont_8to1_b_1330_16_alg».proof.Proof.Gen.ReferenceIdeal.Read
import Idealize.ShloMosaic.Lib.ValueIdx
import Idealize.ShloMosaic.PureOps.Ideal.Laws
import Idealize.ShloMosaic.PureOps.Reduce

noncomputable section

namespace Cert.VQ

open Idealize.ShloMosaic Idealize.ShloMosaic.ValueIdx
open Cert.ReferenceIdeal Cert.ReferenceIdeal.Gen Cert.ReferenceIdeal.Read

/-- The row sums of the squares of the first input are the rows' squared norms. -/
theorem ref_sqNorm_rows (e : Rows) (x0 : (⟨Cert.ReferenceIdeal.S65536x64, .f32⟩ : BufTy).Contents (Elt Ideal))
    (h0 : ∀ (a : Fin 65536) (b : Fin 64), x0 (ix2 a b) = ((e a b : ℝ) : EReal)) (n : Fin 65536) :
    val_main_v1 (F := Ideal) x0 (ix1 n) = ((sqNorm e n : ℝ) : EReal) := by
  have hi : ∀ d : Fin 64, idx_main_v1 (ix1 n) d = ix2 n d := fun d =>
    funext fun a => Fin.ext (by match a with | ⟨0, _⟩ => rfl | ⟨1, _⟩ => rfl)
  rw [val_main_v1_apply, val_main_cst_apply]
  simp only [val_main_v0_apply, hi, h0, Ideal.mulf_def, Ideal.ofBits_def, Consts.ofBits_zero, zero_add,
    ← EReal.coe_mul, Cert.ERealCast.coe_sum]
  rfl

/-- The row sums of the squares of the second input are the centres' squared norms. -/
theorem ref_sqNorm_centres (c : Centres) (x1 : (⟨Cert.ReferenceIdeal.S1024x64, .f32⟩ : BufTy).Contents (Elt Ideal))
    (h1 : ∀ (a : Fin 1024) (b : Fin 64), x1 (ix2 a b) = ((c a b : ℝ) : EReal)) (k : Fin 1024) :
    val_main_v4 (F := Ideal) x1 (ix1 k) = ((sqNorm c k : ℝ) : EReal) := by
  have hi : ∀ d : Fin 64, idx_main_v4 (ix1 k) d = ix2 k d := fun d =>
    funext fun a => Fin.ext (by match a with | ⟨0, _⟩ => rfl | ⟨1, _⟩ => rfl)
  rw [val_main_v4_apply, val_main_cst_0_apply]
  simp only [val_main_v3_apply, hi, h1, Ideal.mulf_def, Ideal.ofBits_def, Consts.ofBits_zero, zero_add,
    ← EReal.coe_mul, Cert.ERealCast.coe_sum]
  rfl

/-- The product of the first input with the transposed second is the array of inner products. -/
theorem ref_inner (e : Rows) (c : Centres) (x0 : (⟨Cert.ReferenceIdeal.S65536x64, .f32⟩ : BufTy).Contents (Elt Ideal))
    (x1 : (⟨Cert.ReferenceIdeal.S1024x64, .f32⟩ : BufTy).Contents (Elt Ideal))
    (h0 : ∀ (a : Fin 65536) (b : Fin 64), x0 (ix2 a b) = ((e a b : ℝ) : EReal))
    (h1 : ∀ (a : Fin 1024) (b : Fin 64), x1 (ix2 a b) = ((c a b : ℝ) : EReal)) (n : Fin 65536) (k : Fin 1024) :
    val_main_v7 (F := Ideal) x0 x1 (ix2 n k) = ((inner e c n k : ℝ) : EReal) := by
  have hl : ∀ d : Fin 64, lidx_main_v7 (ix2 n k) d = ix2 n d := fun d =>
    funext fun a => Fin.ext (by match a with | ⟨0, _⟩ => rfl | ⟨1, _⟩ => rfl)
  have hr : ∀ d : Fin 64, idx_main_v6 (ridx_main_v7 (ix2 n k) d) = ix2 k d := fun d =>
    funext fun a => Fin.ext (by match a with | ⟨0, _⟩ => rfl | ⟨1, _⟩ => rfl)
  rw [val_main_v7_apply]
  simp only [val_main_v6_apply, hl, hr, h0, h1, ← EReal.coe_mul, Cert.ERealCast.coe_sum]
  rfl

/-- Each entry of the array of expansions is the squared distance from the row to the centre. -/
theorem ref_dist (e : Rows) (c : Centres) (x0 : (⟨Cert.ReferenceIdeal.S65536x64, .f32⟩ : BufTy).Contents (Elt Ideal))
    (x1 : (⟨Cert.ReferenceIdeal.S1024x64, .f32⟩ : BufTy).Contents (Elt Ideal))
    (h0 : ∀ (a : Fin 65536) (b : Fin 64), x0 (ix2 a b) = ((e a b : ℝ) : EReal))
    (h1 : ∀ (a : Fin 1024) (b : Fin 64), x1 (ix2 a b) = ((c a b : ℝ) : EReal)) (n : Fin 65536) (k : Fin 1024) :
    val_main_v13 (F := Ideal) x0 x1 (ix2 n k) = ((dist e c n k : ℝ) : EReal) := by
  have hn : idx_main_v2 (idx_main_v10 (ix2 n k)) = ix1 n :=
    funext fun a => Fin.ext (by match a with | ⟨0, _⟩ => rfl)
  have hk : idx_main_v5 (idx_main_v12 (ix2 n k)) = ix1 k :=
    funext fun a => Fin.ext (by match a with | ⟨0, _⟩ => rfl)
  rw [val_main_v13_apply, val_main_v11_apply, val_main_v10_apply, val_main_v2_apply, hn, ref_sqNorm_rows e x0 h0,
    val_main_v9_apply, val_main_v8_apply, val_main_cst_1_apply, ref_inner e c x0 x1 h0 h1,
    val_main_v12_apply, val_main_v5_apply, hk, ref_sqNorm_centres c x1 h1,
    Ideal.addf_def, Ideal.subf_def, Ideal.mulf_def, Ideal.ofBits_def, Consts.ofBits_two,
    ← EReal.coe_mul, ← EReal.coe_sub, ← EReal.coe_add]
  rfl

/-- The reduction by minimum over the centres, at row `n`, is the least squared distance from row `n` to a
    centre. -/
theorem ref_least (e : Rows) (c : Centres) (x0 : (⟨Cert.ReferenceIdeal.S65536x64, .f32⟩ : BufTy).Contents (Elt Ideal))
    (x1 : (⟨Cert.ReferenceIdeal.S1024x64, .f32⟩ : BufTy).Contents (Elt Ideal))
    (h0 : ∀ (a : Fin 65536) (b : Fin 64), x0 (ix2 a b) = ((e a b : ℝ) : EReal))
    (h1 : ∀ (a : Fin 1024) (b : Fin 64), x1 (ix2 a b) = ((c a b : ℝ) : EReal)) (n : Fin 65536) :
    val_main_v14 (F := Ideal) x0 x1 (ix1 n) = ((least e c n : ℝ) : EReal) := by
  have hred : S65536x1024.Reduces [1] S65536 := by decide
  unfold val_main_v14
  rw [Host.reduce_eq_fold_single FloatOps.minimumf _ _ reducesTo_S65536x1024_S65536_d1 hred h_S_]
  have hf : (val_main_v13 (F := Ideal) x0 x1 ∘ hred.lift (ix1 n))
      = fun k : Fin 1024 => ((dist e c n k : ℝ) : EReal) := by
    funext k
    have hl : hred.lift (ix1 n) k = ix2 n k :=
      funext fun a => Fin.ext (by match a with | ⟨0, _⟩ => rfl | ⟨1, _⟩ => rfl)
    show val_main_v13 (F := Ideal) x0 x1 (hred.lift (ix1 n) k) = _
    rw [hl]
    exact ref_dist e c x0 x1 h0 h1 n k
  have hm : (FloatOps.minimumf (F := Ideal) (φ := .f32)) = (min : EReal → EReal → EReal) := rfl
  rw [val_main_cst_2_apply, Ideal.ofBits_def, Consts.ofBits_inf]
  exact (congrArg (fun g => (Finset.univ : Finset (Fin 1024)).fold min (⊤ : EReal) g) hf).trans
    (Cert.ERealCast.fold_min_top_coe Finset.univ ⟨0, Finset.mem_univ _⟩ (dist e c n))

end Cert.VQ

end
-- ==== Proof.RefValue.lean ====
/-
  The reference's value, read on the reals. With every input entry the cast of a real, the sum over the
  rows of the least squared distances, started at zero and divided by 65536, is the cast of the loss: the
  mean over the rows of the least squared distance from the row to a centre.
-/
import proofs.«123310_g395136991332_cont_8to1_b_1330_16_alg».proof.Proof.Spec
import proofs.«123310_g395136991332_cont_8to1_b_1330_16_alg».proof.Proof.LibERealCast
import proofs.«123310_g395136991332_cont_8to1_b_1330_16_alg».proof.Proof.Consts
import proofs.«123310_g395136991332_cont_8to1_b_1330_16_alg».proof.Proof.RefRow
import proofs.«123310_g395136991332_cont_8to1_b_1330_16_alg».proof.Proof.Gen.ReferenceIdeal.Read
import Idealize.ShloMosaic.Lib.ValueIdx
import Idealize.ShloMosaic.Lib.ValueIdxRank1
import Idealize.ShloMosaic.PureOps.Ideal.Laws

noncomputable section

namespace Cert.VQ

open Idealize.ShloMosaic Idealize.ShloMosaic.ValueIdx
open Cert.ReferenceIdeal Cert.ReferenceIdeal.Gen Cert.ReferenceIdeal.Read

theorem refValue_eq (e : Rows) (c : Centres)
    (x0 : (⟨Cert.ReferenceIdeal.S65536x64, .f32⟩ : BufTy).Contents (Elt Ideal)) (x1 : (⟨Cert.ReferenceIdeal.S1024x64, .f32⟩ : BufTy).Contents (Elt Ideal))
    (h0 : ∀ (a : Fin 65536) (b : Fin 64), x0 (ix2 a b) = ((e a b : ℝ) : EReal))
    (h1 : ∀ (a : Fin 1024) (b : Fin 64), x1 (ix2 a b) = ((c a b : ℝ) : EReal)) :
    Cert.ReferenceIdeal.Read.val_main_v16 (F := Ideal) x0 x1 = fun _ => ((loss e c : ℝ) : EReal) := by
  funext i
  -- the sum over the rank-one index set is the sum over the rows
  have hsum : ∑ j : S65536.Idx, val_main_v14 (F := Ideal) x0 x1 j
      = ((∑ n : Fin 65536, least e c n : ℝ) : EReal) := by
    rw [← Equiv.sum_comp (idxEquiv1 (n := 65536)).symm (val_main_v14 (F := Ideal) x0 x1),
      ← Cert.ERealCast.coe_sum]
    exact Finset.sum_congr rfl fun n _ => ref_least e c x0 x1 h0 h1 n
  rw [val_main_v16_apply, val_main_v15_apply, hsum, val_main_cst_3_apply, val_main_cst_4_apply,
    Ideal.hostDivf_def, Ideal.ofBits_def, Ideal.ofBits_def, Consts.ofBits_zero, Consts.ofBits_65536, zero_add,
    Ideal.div_coe (by norm_num), ← EReal.coe_mul]
  unfold loss
  rw [mul_one_div]

end Cert.VQ

end
-- ==== Proof.KernelBlocks.lean ====
/-
  The blocks the kernel's body reads, at explicit coordinates. The first window walks the transposed first
  input, 64 x 65536, in 32 column blocks of width 2048: entry (d, n) of block t is entry (2048 t + n, d) of
  the first input. The second window is the whole second input at every step.
-/
import proofs.«123310_g395136991332_cont_8to1_b_1330_16_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.KernelRun

open Idealize.ShloMosaic Idealize.ShloMosaic.ValueIdx Idealize.SL.Sem Cert.KernelIdeal Cert.KernelIdeal.Gen

variable (m : (ℓ : Loc nD τ sig) → Buf (Elt Ideal) ℓ)

/-- The array the first window stages is the transpose of the first input. -/
theorem staged_rows (c : Dev nD) :
    (V m c main_v0 : S64x65536.Idx → EReal)
      = transpose S64x65536 [1, 0] (m ((c.tc : Thread nD τ).loc main_arg0)) transposes_S65536x64_S64x65536_1_0 := by
  show StableHlo.after hostOps0 (fun b => m (c, b)) (Proc.devRef .tc main_v0) = _
  after_results

/-- The first window's block index at step t is (0, t). -/
theorem rows_index : ∀ t : Fin cfg0.N, win0_0.index t 0 = 0 ∧ win0_0.index t 1 = t.val :=
  (by decide +kernel : ∀ t : Fin grid0.N, win0_0.index t 0 = 0 ∧ win0_0.index t 1 = t.val)

/-- The second window's block index is (0, 0) at every step. -/
theorem centres_index : ∀ t : Fin cfg0.N, win0_1.index t 0 = 0 ∧ win0_1.index t 1 = 0 :=
  (by decide +kernel : ∀ t : Fin grid0.N, win0_1.index t 0 = 0 ∧ win0_1.index t 1 = 0)

/-- Entry (d, n) of the first window's block at step t is entry (2048 t + n, d) of the first input. -/
theorem rows_block (c : Dev nD) (t : Fin cfg0.N) (d : Fin 64) (n : Fin 2048) (k : Fin 65536)
    (hk : k.val = 2048 * t.val + n.val) :
    (iblk m c 0 t : Vec Ideal S64x2048 .f32) (ix2 d n) = m ((c.tc : Thread nD τ).loc main_arg0) (ix2 k d) := by
  unfold iblk
  rw [View.read_apply]
  show V m c main_v0 _ = _
  refine (congrFun (staged_rows m c) _).trans ?_
  refine transpose_apply [1, 0] _ _ _ (ix2 k d) (fun b => ?_)
  match b with
  | ⟨0, _⟩ =>
    show d.val = win0_0.index t 0 * 64 + 1 * d.val
    rw [(rows_index t).1]; omega
  | ⟨1, _⟩ =>
    show k.val = win0_0.index t 1 * 2048 + 1 * n.val
    rw [(rows_index t).2]; omega

/-- Entry (k, d) of the second window's block at any step is entry (k, d) of the second input. -/
theorem centres_block (c : Dev nD) (t : Fin cfg0.N) (k : Fin 1024) (d : Fin 64) :
    (iblk m c 1 t : Vec Ideal S1024x64 .f32) (ix2 k d) = m ((c.tc : Thread nD τ).loc main_arg1) (ix2 k d) := by
  unfold iblk
  rw [View.read_apply]
  show V m c main_arg1 _ = _
  refine (congrFun (V_main_arg1 m c) _).trans ?_
  refine congrArg (m ((c.tc : Thread nD τ).loc main_arg1)) (funext fun a => Fin.ext ?_)
  match a with
  | ⟨0, _⟩ =>
    show win0_1.index t 0 * 1024 + 1 * k.val = k.val
    rw [(centres_index t).1]; omega
  | ⟨1, _⟩ =>
    show win0_1.index t 1 * 64 + 1 * d.val = d.val
    rw [(centres_index t).2]; omega

end Cert.KernelIdeal.KernelRun

end
-- ==== Proof.KernelRun.lean ====
/-
  The kernel's run, read at its result buffer. The region's one output block, 1 x 1, never moves and is
  written back once, after the last of the 32 steps, so the output array ends holding what the body left
  after step 31; the host's tail reshapes that 1 x 1 array to a scalar and divides it by 65536.
-/
import proofs.«123310_g395136991332_cont_8to1_b_1330_16_alg».proof.Proof.Gen.KernelIdeal.Frame
import proofs.«123310_g395136991332_cont_8to1_b_1330_16_alg».proof.Proof.KernelBlocks
import Idealize.ShloMosaic.Lib.Pipeline.Frame
import Idealize.ShloMosaic.Lib.Pipeline.FrameSuffix
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.KernelRun

open Idealize.ShloMosaic Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- Step 31 is a step of the grid. -/
theorem last_lt : 31 < cfg0.N := by rw [show cfg0.N = 32 from N_0]; decide

/-- The last step. -/
abbrev tLast : Fin cfg0.N := ⟨31, last_lt⟩

/-- What the body leaves in the output block after the last step, as contents of the output array. -/
abbrev result (c : Dev nD) : Buf (Elt Ideal) ((c.tc : Thread nD τ).loc main_v1) := (outsAt0 m c 31 last_lt).1

/-- The one write-back, after step 31, writes it: block (0, 0) of the 1 x 1 array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 32 := N_0
  have h3 : t.val = 31 := by have := (flush0_2 t).mp hf; have := t.isLt; omega
  obtain rfl : t = tLast := Fin.ext h3
  show (cfg0.win 2).cut (grid0.coords tLast) ((dats m 0 c).after 2 tLast) = _
  rw [after0_2]
  have hz' : (fun a => win0_2.index tLast a * main_v1.ty.shape.size a) = fun _ => 0 :=
    funext fun a => by fin_cases a <;> decide +kernel
  exact (Memref.read_access_unit_zero (Elt Ideal) main_v1 hz' (fun a => by rw [congrFun hz' a]; simp) (result m c)).symm

/-- So the output array ends holding what the body left after step 31. -/
theorem final_out (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v1).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-- The host's tail: the 1 x 1 array reshaped to a scalar, divided by the constant 65536. -/
theorem tail_eq (c : Dev nD) :
    Pipeline.afterTail₀ cfgs (dats m) 0 (V0 m) [hostOps1] c main_v3
      = fun _ => Ideal.div ((outsAt0 m c 31 last_lt).1 (ix2 0 0)) (Ideal.ofBits .f32 0x47800000#32) := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v1) = result m c :=
    (Pipeline.withArrays_arr spec0 launch0.win.arr_inj c _ _ 2).trans (final_out m c)
  rw [hw]
  funext i
  have h1 : (S1x1.rowMajor (ix2 (0 : Fin 1) (0 : Fin 1))).val = 0 := by rw [Shape.rowMajor_val_two]; rfl
  have h2 : (S_.rowMajor i).val = 0 := by
    have hlt := (S_.rowMajor i).isLt
    have e : S_.numel = 1 := by decide
    omega
  show Ideal.div (shapeCast S_ (result m c) shapeCasts_S1x1_S_ i) (Ideal.ofBits .f32 0x47800000#32) = _
  rw [shapeCast_apply (result m c) shapeCasts_S1x1_S_ i (ix2 0 0) (h1.trans h2.symm)]

/-- The run, read: the result buffer at the body's last contents divided by 65536, the arguments unchanged. -/
theorem run_value :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v3) = (fun _ => Ideal.div ((outsAt0 m c 31 last_lt).1 (ix2 0 0)) (Ideal.ofBits .f32 0x47800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.KernelRun

end
-- ==== Proof.Pieces.lean ====
/-
  What one grid step of the kernel leaves, as pure functions of what it reads.

  A step reads its block of 2048 rows (transposed: 64 x 2048), the scratch holding the extended centres
  (1024 x 66) and the 1 x 1 accumulator. `stepPartial` is the number the step adds to the accumulator, as the
  composition of the body's arithmetic: the four 256-centre products of the scratch with the extended block,
  their running minimum over sublane tiles, the minimum over the eight sublanes, the rows' squared norms, and
  the sum over the block's columns. At the first step the scratch is first filled from the centres and the
  accumulator first set to zero; at every later step both are what the step before left.
-/
import proofs.«123310_g395136991332_cont_8to1_b_1330_16_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen

variable {F : FTy → Type} [FloatOps F]

/-- The offset of a store or load of a whole rank-two buffer is the zero vector. -/
theorem off_zero : (![0, 0] : Fin 2 → Nat) = fun _ => 0 := by
  funext a; fin_cases a <;> rfl

/-- The running minimum over the four products after the third, before the fourth is folded in: an [8, 2048]
    array, entry (s, n) the least over the first 768 centres congruent to s modulo 8 of the product's column n. -/
def minThree (x0 : Vec F S64x2048 .f32) (xs : Vec F S1024x66 .bf16) : FVec F S8x2048 .f32 :=
  k0_pay15 (k0_pay11 (k0_pay8 (k0_pay6 x0 xs) (k0_pay7 x0 xs)) (k0_pay9 (k0_pay5 x0) xs) (k0_pay10 (k0_pay5 x0) xs))
    (k0_pay12 (k0_pay5 x0) xs) (k0_pay13 (k0_pay5 x0) xs) (k0_pay14 (k0_pay5 x0) xs)

/-- What a step adds to the accumulator, from its block `x0` and the scratch `xs`. -/
def stepPartial (x0 : Vec F S64x2048 .f32) (xs : Vec F S1024x66 .bf16) : FVec F S1x1 .f32 :=
  k0_pay18 (k0_pay4 x0) (minThree x0 xs) (k0_pay16 (k0_pay5 x0) xs) (k0_pay17 (k0_pay5 x0) xs)

/-- The first step leaves in the scratch the extended centres, computed from the centres' block. -/
theorem scratch_first (c : Dev nD) (i : grid0.Coords) (arg1 : Memref sig .tc .vmem S64x2048 .f32) (harg1 : arg1.IsWhole) (arg2 : Memref sig .tc .vmem S1024x64 .f32) (harg2 : arg2.IsWhole) (arg3 : Memref sig .tc .vmem S1x1 .f32) (harg3 : arg3.IsWhole) (arg4 : Memref sig .tc .vmem S1024x66 .bf16) (harg4 : arg4.IsWhole) (hc0 : cond0_0 i) (hc1 : cond0_1 i)
    (x0 : Vec F S64x2048 .f32) (x1 : Vec F S1024x64 .f32) :
    sout0_A_0 (F := F) c i arg1 harg1 arg2 harg2 arg3 harg3 arg4 harg4 hc0 hc1 x0 x1 = k0_pay3 x1 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_unit_zero off_zero]
  simp only [View.readAt_eq_ld, harg2.read_unread, View.ld_unit_zero (S := S1024x64) off_zero]

/-- The first step leaves in the accumulator zero plus its own contribution, computed over the scratch it
    has just filled. -/
theorem acc_first (c : Dev nD) (i : grid0.Coords) (arg1 : Memref sig .tc .vmem S64x2048 .f32) (harg1 : arg1.IsWhole) (arg2 : Memref sig .tc .vmem S1024x64 .f32) (harg2 : arg2.IsWhole) (arg3 : Memref sig .tc .vmem S1x1 .f32) (harg3 : arg3.IsWhole) (arg4 : Memref sig .tc .vmem S1024x66 .bf16) (harg4 : arg4.IsWhole) (hc0 : cond0_0 i) (hc1 : cond0_1 i)
    (x0 : Vec F S64x2048 .f32) (x1 : Vec F S1024x64 .f32) :
    out0_A_2 (F := F) c i arg1 harg1 arg2 harg2 arg3 harg3 arg4 harg4 hc0 hc1 x0 x1 = k0_pay2 (stepPartial x0 (k0_pay3 x1)) k0_pay1 := by
  unfold out0_A_2
  rw [View.read_writes_eq_canon _ _ _ (cover0_A_2 c i arg1 harg1 arg2 harg2 arg3 harg3 arg4 harg4 hc0 hc1 x0 x1)]
  unfold kernelRun0_A
  dsimp only
  sl_unfold_words
  rw [View.canon_cons_unit_zero (S := S1x1) off_zero]
  simp only [View.readAt_eq_ld, harg1.read_unread, harg2.read_unread, View.ld_unit_zero (S := S64x2048) off_zero,
    View.ld_unit_zero (S := S1024x64) off_zero, View.readCov_unit_zero (S := S1024x66) _ off_zero,
    View.readCov_unit_zero (S := S1x1) _ off_zero]
  rfl

/-- A later step leaves in the accumulator what the step before left plus its own contribution, computed
    over the scratch the step before left. -/
theorem acc_later (c : Dev nD) (i : grid0.Coords) (arg1 : Memref sig .tc .vmem S64x2048 .f32) (harg1 : arg1.IsWhole) (arg2 : Memref sig .tc .vmem S1024x64 .f32) (harg2 : arg2.IsWhole) (arg3 : Memref sig .tc .vmem S1x1 .f32) (harg3 : arg3.IsWhole) (arg4 : Memref sig .tc .vmem S1024x66 .bf16) (harg4 : arg4.IsWhole) (hc0 : ¬cond0_0 i) (hc1 : ¬cond0_1 i)
    (x0 : Vec F S64x2048 .f32) (x1 : Vec F S1024x64 .f32) (xo2 : Vec F S1x1 .f32) (xs0 : Vec F S1024x66 .bf16) :
    out0_B_2 (F := F) c i arg1 harg1 arg2 harg2 arg3 harg3 arg4 harg4 hc0 hc1 x0 x1 xo2 xs0 = k0_pay2 (stepPartial x0 xs0) xo2 := by
  unfold out0_B_2
  rw [View.read_writes_eq_canon _ _ _ (cover0_B_2 c i arg1 harg1 arg2 harg2 arg3 harg3 arg4 harg4 hc0 hc1 x0 x1 xo2 xs0)]
  unfold kernelRun0_B
  dsimp only
  sl_unfold_words
  rw [View.canon_unit_zero (S := S1x1) off_zero]
  simp only [View.readAt_eq_ld, harg1.read_unread, harg3.read_unread, harg4.read_unread,
    View.ld_unit_zero (S := S64x2048) off_zero, View.ld_unit_zero (S := S1024x66) off_zero,
    View.ld_unit_zero (S := S1x1) off_zero]
  rfl

end Cert.KernelIdeal.Pieces

end
-- ==== Proof.Accum.lean ====
/-
  The accumulator and the scratch after every grid point.

  The scratch is filled at the first point with the extended centres and never written again, so after
  every point it holds them. The 1 x 1 accumulator is set to zero at the first point and every point adds its
  contribution, so after point t it holds zero plus the contributions of points 0 … t, in that order.
-/
import proofs.«123310_g395136991332_cont_8to1_b_1330_16_alg».proof.Proof.Pieces
import Idealize.ShloMosaic.Lib.ValueIdx
import Idealize.ShloMosaic.Lib.Pipeline.Value

set_option maxRecDepth 16384

noncomputable section

namespace Cert.KernelIdeal.Accum

open Idealize.ShloMosaic Idealize.ShloMosaic.ValueIdx Idealize.SL.Sem
open Cert.KernelIdeal Cert.KernelIdeal.Gen Cert.KernelIdeal.Pieces

variable (m : (ℓ : Loc nD τ sig) → Buf (Elt Ideal) ℓ)

/-- The grid has 32 points. -/
theorem points : cfg0.N = 32 := N_0

theorem first_lt : 0 < cfg0.N := by rw [points]; decide

/-- The block of rows point t reads, and the centres' block (the whole array, at every point). -/
abbrev rowsBlk (c : Dev nD) (t : Fin cfg0.N) : Vec Ideal S64x2048 .f32 := iblk m c 0 t
abbrev centresBlk (c : Dev nD) (t : Fin cfg0.N) : Vec Ideal S1024x64 .f32 := iblk m c 1 t

/-- The extended centres, as the first point builds them. -/
def scratch (c : Dev nD) : Vec Ideal S1024x66 .bf16 := k0_pay3 (centresBlk m c ⟨0, first_lt⟩)

/-- After every point the scratch holds the extended centres. -/
theorem scratch_after (c : Dev nD) : ∀ (t : ℕ) (ht : t < cfg0.N), (outsAt0 m c t ht).2 = scratch m c
  | 0, ht => by
    rw [show outsAt0 m c 0 ht = outsAt0 m c (⟨0, ht⟩ : Fin cfg0.N).val (⟨0, ht⟩ : Fin cfg0.N).isLt from rfl,
      outsAt0_A m c ⟨0, ht⟩ (Nat.zero_mod _) (Nat.zero_mod _)]
    dsimp only
    exact scratch_first (F := Ideal) c (grid0.coords ⟨0, ht⟩) (ms0_0 ⟨0, ht⟩) (hs0_0 ⟨0, ht⟩) (ms0_1 ⟨0, ht⟩) (hs0_1 ⟨0, ht⟩) (ms0_2 ⟨0, ht⟩) (hs0_2 ⟨0, ht⟩) scM0_0 (Memref.isWhole_whole _)
      ((hcond0_0 ⟨0, ht⟩).mpr (Nat.zero_mod _)) ((hcond0_1 ⟨0, ht⟩).mpr (Nat.zero_mod _)) (iblk m c 0 ⟨0, ht⟩) (iblk m c 1 ⟨0, ht⟩)
  | t + 1, ht => by
    have hN : t + 1 < 32 := lt_of_lt_of_eq ht (points)
    have h0 : ¬(⟨t + 1, ht⟩ : Fin cfg0.N).val % 32 = 0 := by show ¬(t + 1) % 32 = 0; omega
    rw [show outsAt0 m c (t + 1) ht = outsAt0 m c (⟨t + 1, ht⟩ : Fin cfg0.N).val (⟨t + 1, ht⟩ : Fin cfg0.N).isLt from rfl,
      outsAt0_B m c ⟨t + 1, ht⟩ h0 h0]
    dsimp only
    unfold sout0_B_0
    exact scratch_after c t (Nat.lt_of_succ_lt ht)

/-- What point u contributes (zero past the grid). -/
def contribution (c : Dev nD) (u : ℕ) : EReal :=
  if h : u < cfg0.N then stepPartial (rowsBlk m c ⟨u, h⟩) (scratch m c) (ix2 0 0) else 0

/-- The accumulate step at its one entry: what was there plus the contribution. -/
theorem accumulate_apply (p : FVec Ideal S1x1 .f32) (a : Vec Ideal S1x1 .f32) :
    k0_pay2 p a (ix2 0 0) = a (ix2 0 0) + p (ix2 0 0) := by
  unfold k0_pay2
  rw [addf_apply, shapeCast_self]

/-- After point t the accumulator holds zero plus the contributions of points 0 … t. -/
theorem acc_after (c : Dev nD) : ∀ (t : ℕ) (ht : t < cfg0.N),
    (outsAt0 m c t ht).1 (ix2 0 0) = Ideal.ofBits .f32 0x00000000#32 + ∑ u ∈ Finset.range (t + 1), contribution m c u
  | 0, ht => by
    rw [show outsAt0 m c 0 ht = outsAt0 m c (⟨0, ht⟩ : Fin cfg0.N).val (⟨0, ht⟩ : Fin cfg0.N).isLt from rfl,
      outsAt0_A m c ⟨0, ht⟩ (Nat.zero_mod _) (Nat.zero_mod _)]
    dsimp only
    rw [acc_first (F := Ideal) c (grid0.coords ⟨0, ht⟩) (ms0_0 ⟨0, ht⟩) (hs0_0 ⟨0, ht⟩) (ms0_1 ⟨0, ht⟩) (hs0_1 ⟨0, ht⟩) (ms0_2 ⟨0, ht⟩) (hs0_2 ⟨0, ht⟩) scM0_0 (Memref.isWhole_whole _)
      ((hcond0_0 ⟨0, ht⟩).mpr (Nat.zero_mod _)) ((hcond0_1 ⟨0, ht⟩).mpr (Nat.zero_mod _)) (iblk m c 0 ⟨0, ht⟩) (iblk m c 1 ⟨0, ht⟩),
      accumulate_apply, Finset.sum_range_one]
    unfold contribution
    rw [dif_pos ht]
    rfl
  | t + 1, ht => by
    have hN : t + 1 < 32 := lt_of_lt_of_eq ht (points)
    have h0 : ¬(⟨t + 1, ht⟩ : Fin cfg0.N).val % 32 = 0 := by show ¬(t + 1) % 32 = 0; omega
    rw [show outsAt0 m c (t + 1) ht = outsAt0 m c (⟨t + 1, ht⟩ : Fin cfg0.N).val (⟨t + 1, ht⟩ : Fin cfg0.N).isLt from rfl,
      outsAt0_B m c ⟨t + 1, ht⟩ h0 h0]
    dsimp only
    simp only [Nat.add_sub_cancel]
    rw [acc_later (F := Ideal) c (grid0.coords ⟨t + 1, ht⟩) (ms0_0 ⟨t + 1, ht⟩) (hs0_0 ⟨t + 1, ht⟩) (ms0_1 ⟨t + 1, ht⟩) (hs0_1 ⟨t + 1, ht⟩) (ms0_2 ⟨t + 1, ht⟩) (hs0_2 ⟨t + 1, ht⟩) scM0_0 (Memref.isWhole_whole _)
      (fun h => h0 ((hcond0_0 ⟨t + 1, ht⟩).mp h)) (fun h => h0 ((hcond0_1 ⟨t + 1, ht⟩).mp h)) (iblk m c 0 ⟨t + 1, ht⟩) (iblk m c 1 ⟨t + 1, ht⟩)
      (outsAt0 m c t (Nat.lt_of_succ_lt ht)).1 (outsAt0 m c t (Nat.lt_of_succ_lt ht)).2,
      accumulate_apply, acc_after c t (Nat.lt_of_succ_lt ht), scratch_after m c t (Nat.lt_of_succ_lt ht),
      Finset.sum_range_succ _ (t + 1), add_assoc]
    have hc : contribution m c (t + 1) = stepPartial (rowsBlk m c ⟨t + 1, ht⟩) (scratch m c) (ix2 0 0) := by
      unfold contribution
      rw [dif_pos ht]
    rw [hc]

end Cert.KernelIdeal.Accum

end
-- ==== Proof.StepMin.lean ====
/-
  The running minimum of a grid step, read at an entry.

  A step multiplies the scratch, 256 centres at a time, with the extended block; each product is a
  256 x 2048 array, centre by column. Of each product the step takes the entrywise minimum of its 32 tiles of
  eight rows, and of the four results the entrywise minimum again: an 8 x 2048 array whose entry (s, n) is the
  least, over the centres congruent to s modulo 8, of the products' column n. A minimum is carried here by its
  universal property: a number is below the minimum exactly when it is below every entry it is taken over.
-/
import proofs.«123310_g395136991332_cont_8to1_b_1330_16_alg».proof.Proof.Pieces
import Idealize.ShloMosaic.Lib.ValueIdx
import Idealize.ShloMosaic.Lib.Pipeline.Value
import Idealize.ShloMosaic.PureOps.Ideal.Laws

set_option maxRecDepth 16384

noncomputable section

namespace Cert.KernelIdeal.StepMin

open Idealize.ShloMosaic Idealize.ShloMosaic.ValueIdx
open Cert.KernelIdeal Cert.KernelIdeal.Gen Cert.KernelIdeal.Pieces

/-- Entry (o + s, n) of a 256-row product, for a tile of eight rows starting at row o (the top element if the
    tile does not lie inside the product). -/
def tileAt (P : FVec Ideal S256x2048 .f32) (s : Fin 8) (n : Fin 2048) (o : ℕ) : EReal :=
  if h : o + 8 ≤ 256 then P (ix2 ⟨o + s.val, by omega⟩ n) else ⊤

/-- The tile of eight rows starting at row o, read at (s, n), is the product's entry (o + s, n). -/
theorem slice_tileAt (P : FVec Ideal S256x2048 .f32) (o : ℕ) (h : S256x2048.Slices ![o, 0] S8x2048) (s : Fin 8) (n : Fin 2048) :
    extractStridedSlice S8x2048 ![o, 0] P h (ix2 s n) = tileAt P s n o := by
  have ho : o + 8 ≤ 256 := by
    obtain ⟨hr, hb⟩ := h
    have := hb 0
    simpa using this
  unfold tileAt
  rw [dif_pos ho]
  exact extractStridedSlice_apply _ _ _ _ (ix2 ⟨o + s.val, by omega⟩ n) (fun a => by
    match a with
    | ⟨0, _⟩ => rfl
    | ⟨1, _⟩ => simp)

/-- The starting rows of a product's 32 tiles of eight rows. -/
def tiles : Finset ℕ :=
  {0, 8, 16, 24, 32, 40, 48, 56, 64, 72, 80, 88, 96, 104, 112, 120, 128, 136, 144, 152, 160, 168, 176, 184, 192, 200,
    208, 216, 224, 232, 240, 248}

/-- The first product's tiles: a number is below their entrywise minimum at (s, n) exactly when it is below
    every tile's entry there. -/
theorem le_first (x0 : Vec Ideal S64x2048 .f32) (xs : Vec Ideal S1024x66 .bf16) (s : Fin 8) (n : Fin 2048) (y : EReal) :
    y ≤ k0_pay8 (k0_pay6 x0 xs) (k0_pay7 x0 xs) (ix2 s n) ↔ ∀ o ∈ tiles, y ≤ tileAt (k0_pay6 x0 xs) s n o := by
  simp only [k0_pay8, k0_pay7, minimumf_apply, slice_tileAt, le_min_iff, tiles, Finset.mem_insert, Finset.mem_singleton,
    forall_eq_or_imp, forall_eq, and_assoc]

/-- The second product's tiles, folded into a running minimum `A`: below the result at (s, n) exactly when
    below `A` there and below every tile's entry there. -/
theorem le_second (A : FVec Ideal S8x2048 .f32) (aug : FVec Ideal S66x2048 .bf16) (xs : Vec Ideal S1024x66 .bf16)
    (s : Fin 8) (n : Fin 2048) (y : EReal) :
    y ≤ k0_pay11 A (k0_pay9 aug xs) (k0_pay10 aug xs) (ix2 s n)
      ↔ y ≤ A (ix2 s n) ∧ ∀ o ∈ tiles, y ≤ tileAt (k0_pay9 aug xs) s n o := by
  simp only [k0_pay11, k0_pay10, minimumf_apply, slice_tileAt, le_min_iff, tiles, Finset.mem_insert, Finset.mem_singleton,
    forall_eq_or_imp, forall_eq, and_assoc]

/-- The third product's tiles, folded into a running minimum `A`. -/
theorem le_third (A : FVec Ideal S8x2048 .f32) (aug : FVec Ideal S66x2048 .bf16) (xs : Vec Ideal S1024x66 .bf16)
    (s : Fin 8) (n : Fin 2048) (y : EReal) :
    y ≤ k0_pay15 A (k0_pay12 aug xs) (k0_pay13 aug xs) (k0_pay14 aug xs) (ix2 s n)
      ↔ y ≤ A (ix2 s n) ∧ ∀ o ∈ tiles, y ≤ tileAt (k0_pay12 aug xs) s n o := by
  simp only [k0_pay15, k0_pay13, k0_pay14, minimumf_apply, slice_tileAt, le_min_iff, tiles, Finset.mem_insert,
    Finset.mem_singleton, forall_eq_or_imp, forall_eq, and_assoc]

/-- The running minimum after three products: below it at (s, n) exactly when below every tile's entry there,
    of each of the three. -/
theorem le_minThree (x0 : Vec Ideal S64x2048 .f32) (xs : Vec Ideal S1024x66 .bf16) (s : Fin 8) (n : Fin 2048) (y : EReal) :
    y ≤ minThree x0 xs (ix2 s n)
      ↔ (∀ o ∈ tiles, y ≤ tileAt (k0_pay6 x0 xs) s n o) ∧ (∀ o ∈ tiles, y ≤ tileAt (k0_pay9 (k0_pay5 x0) xs) s n o)
        ∧ (∀ o ∈ tiles, y ≤ tileAt (k0_pay12 (k0_pay5 x0) xs) s n o) := by
  unfold minThree
  rw [le_third, le_second, le_first, and_assoc]

end Cert.KernelIdeal.StepMin

end
-- ==== Proof.StepProd.lean ====
/-
  The products of a grid step, read at an entry.

  The extended block is the step's block of rows (64 x 2048, one row per column) with two rows of ones below
  it. Each of the four products multiplies 256 rows of the scratch (256 x 66) with the extended block
  (66 x 2048) into a zero accumulator, so its entry (r, n) is the sum over the 66 extended entries of the
  scratch's row times the extended block's column.
-/
import proofs.«123310_g395136991332_cont_8to1_b_1330_16_alg».proof.Proof.Pieces
import Idealize.ShloMosaic.Lib.ValueIdx
import Idealize.ShloMosaic.Lib.Pipeline.Value
import Idealize.ShloMosaic.PureOps.Ideal.Laws

set_option maxRecDepth 16384

noncomputable section

namespace Cert.KernelIdeal.StepProd

open Idealize.ShloMosaic Idealize.ShloMosaic.ValueIdx
open Cert.KernelIdeal Cert.KernelIdeal.Gen Cert.KernelIdeal.Pieces

/-! ## The extended block -/

/-- Above row 64 the extended block is the block. -/
theorem aug_block (x0 : Vec Ideal S64x2048 .f32) (q : Fin 66) (n : Fin 2048) (h : q.val < 64) :
    k0_pay5 x0 (ix2 q n) = x0 (ix2 ⟨q.val, h⟩ n) := by
  unfold k0_pay5 k0_pay4
  dsimp only
  rw [concatenate_pair_apply_left (s₁ := S64x2048) (s₂ := S2x2048) (0 : Fin S66x2048.rank) _ _ _ (ix2 q n) rfl
    (ix2 (⟨q.val, h⟩ : Fin 64) n) (fun b => by
    match b with
    | ⟨0, _⟩ => rfl
    | ⟨1, _⟩ => rfl)]
  rw [truncf_apply, shapeCast_self]

/-- Its last two rows are ones. -/
theorem aug_ones (x0 : Vec Ideal S64x2048 .f32) (q : Fin 66) (n : Fin 2048) (h : ¬q.val < 64) :
    k0_pay5 x0 (ix2 q n) = Ideal.ofBits .bf16 0x3F80#16 := by
  unfold k0_pay5 k0_pay4
  dsimp only
  have hq : q.val - 64 < 2 := by have := q.isLt; omega
  rw [concatenate_pair_apply_right (s₁ := S64x2048) (s₂ := S2x2048) (0 : Fin S66x2048.rank) _ _ _ (ix2 q n) rfl rfl
    (ix2 (⟨q.val - 64, hq⟩ : Fin 2) n) (fun b hb => by
    match b with
    | ⟨0, _⟩ => exact absurd rfl hb
    | ⟨1, _⟩ => rfl) (by show q.val - 64 + 64 = q.val; omega)]
  rfl

/-! ## A product into zero, read at an entry -/

theorem lhs_0 (i : S256x2048.Idx) (q : dot_S256x66_S66x2048_S256x2048_1_0_0_1_n_n.contr.Idx) : (dot_S256x66_S66x2048_S256x2048_1_0_0_1_n_n.lhsIdx i q 0).val = (i 0).val := by
  unfold DotDims.lhsIdx
  rw [dif_neg (show ¬(0 : Fin S256x66.rank) ∈ dot_S256x66_S66x2048_S256x2048_1_0_0_1_n_n.lhsBatch by decide), dif_pos (show (0 : Fin S256x66.rank) ∈ dot_S256x66_S66x2048_S256x2048_1_0_0_1_n_n.lhsNonContracting by decide)]
  rfl
theorem lhs_1 (i : S256x2048.Idx) (q : dot_S256x66_S66x2048_S256x2048_1_0_0_1_n_n.contr.Idx) : (dot_S256x66_S66x2048_S256x2048_1_0_0_1_n_n.lhsIdx i q 1).val = (q ⟨0, by decide⟩).val :=
  dot_S256x66_S66x2048_S256x2048_1_0_0_1_n_n.lhsIdx_val_of_single rfl i q
theorem rhs_0 (i : S256x2048.Idx) (q : dot_S256x66_S66x2048_S256x2048_1_0_0_1_n_n.contr.Idx) : (dot_S256x66_S66x2048_S256x2048_1_0_0_1_n_n.rhsIdx i q 0).val = (q ⟨0, by decide⟩).val :=
  dot_S256x66_S66x2048_S256x2048_1_0_0_1_n_n.rhsIdx_val_of_single rfl i q
theorem rhs_1 (i : S256x2048.Idx) (q : dot_S256x66_S66x2048_S256x2048_1_0_0_1_n_n.contr.Idx) : (dot_S256x66_S66x2048_S256x2048_1_0_0_1_n_n.rhsIdx i q 1).val = (i 1).val := by
  unfold DotDims.rhsIdx
  rw [dif_neg (show ¬(1 : Fin S66x2048.rank) ∈ dot_S256x66_S66x2048_S256x2048_1_0_0_1_n_n.rhsBatch by decide), dif_pos (show (1 : Fin S66x2048.rank) ∈ dot_S256x66_S66x2048_S256x2048_1_0_0_1_n_n.rhsNonContracting by decide)]
  rfl

/-- Entry (r, n) of a product into zero: the sum over the 66 extended entries of row r of the left factor
    times column n of the right. -/
theorem prod_apply (L : FVec Ideal S256x66 .bf16) (R : FVec Ideal S66x2048 .bf16) (r : Fin 256) (n : Fin 2048) :
    matmul dot_S256x66_S66x2048_S256x2048_1_0_0_1_n_n none L R (constant S256x2048 .f32 0x00000000#32) (ix2 r n) = ∑ k : Fin 66, L (ix2 r k) * R (ix2 k n) := by
  simp only [matmul]
  rw [Ideal.matmul_constant_zero_apply, ← Equiv.sum_comp (ValueIdx.contrEquiv1 dot_S256x66_S66x2048_S256x2048_1_0_0_1_n_n 66 rfl rfl).symm]
  refine Finset.sum_congr rfl fun k _ => ?_
  have hk := ValueIdx.contrEquiv1_symm_val dot_S256x66_S66x2048_S256x2048_1_0_0_1_n_n 66 rfl rfl k
  have el : dot_S256x66_S66x2048_S256x2048_1_0_0_1_n_n.lhsIdx (ix2 r n) ((ValueIdx.contrEquiv1 dot_S256x66_S66x2048_S256x2048_1_0_0_1_n_n 66 rfl rfl).symm k) = ix2 r k := funext fun a => Fin.ext (by
    match a with
    | ⟨0, _⟩ => exact lhs_0 _ _
    | ⟨1, _⟩ => exact (lhs_1 _ _).trans hk)
  have er : dot_S256x66_S66x2048_S256x2048_1_0_0_1_n_n.rhsIdx (ix2 r n) ((ValueIdx.contrEquiv1 dot_S256x66_S66x2048_S256x2048_1_0_0_1_n_n 66 rfl rfl).symm k) = ix2 k n := funext fun a => Fin.ext (by
    match a with
    | ⟨0, _⟩ => exact (rhs_0 _ _).trans hk
    | ⟨1, _⟩ => exact rhs_1 _ _)
  rw [el, er]

/-- Rows o … o + 255 of the scratch, read at (r, q), are the scratch's entry (o + r, q). -/
theorem rows_apply (xs : Vec Ideal S1024x66 .bf16) (o : ℕ) (h : S1024x66.Slices ![o, 0] S256x66) (r : Fin 256) (q : Fin 66)
    (k : Fin 1024) (hk : k.val = o + r.val) :
    extractStridedSlice S256x66 ![o, 0] xs h (ix2 r q) = xs (ix2 k q) :=
  extractStridedSlice_apply _ _ _ _ (ix2 k q) (fun a => by
    match a with
    | ⟨0, _⟩ => exact hk
    | ⟨1, _⟩ => simp)

/-- The extended inner product of centre k of the scratch with column n of the block. -/
def dotAug (x0 : Vec Ideal S64x2048 .f32) (xs : Vec Ideal S1024x66 .bf16) (n : Fin 2048) (k : Fin 1024) : EReal :=
  ∑ q : Fin 66, xs (ix2 k q) * k0_pay5 x0 (ix2 q n)

/-- The four products at (r, n): the extended inner product of centre 256 j + r. -/
theorem prod0 (x0 : Vec Ideal S64x2048 .f32) (xs : Vec Ideal S1024x66 .bf16) (r : Fin 256) (n : Fin 2048) :
    k0_pay6 x0 xs (ix2 r n) = dotAug x0 xs n ⟨r.val, by omega⟩ := by
  unfold k0_pay6 dotAug
  rw [prod_apply]
  exact Finset.sum_congr rfl fun q _ => by rw [rows_apply xs 0 _ r q ⟨r.val, by omega⟩ (by simp)]

theorem prod1 (x0 : Vec Ideal S64x2048 .f32) (xs : Vec Ideal S1024x66 .bf16) (r : Fin 256) (n : Fin 2048) :
    k0_pay9 (k0_pay5 x0) xs (ix2 r n) = dotAug x0 xs n ⟨256 + r.val, by omega⟩ := by
  unfold k0_pay9 dotAug
  rw [prod_apply]
  exact Finset.sum_congr rfl fun q _ => by rw [rows_apply xs 256 _ r q ⟨256 + r.val, by omega⟩ rfl]

theorem prod2 (x0 : Vec Ideal S64x2048 .f32) (xs : Vec Ideal S1024x66 .bf16) (r : Fin 256) (n : Fin 2048) :
    k0_pay12 (k0_pay5 x0) xs (ix2 r n) = dotAug x0 xs n ⟨512 + r.val, by omega⟩ := by
  unfold k0_pay12 dotAug
  rw [prod_apply]
  exact Finset.sum_congr rfl fun q _ => by rw [rows_apply xs 512 _ r q ⟨512 + r.val, by omega⟩ rfl]

theorem prod3 (x0 : Vec Ideal S64x2048 .f32) (xs : Vec Ideal S1024x66 .bf16) (r : Fin 256) (n : Fin 2048) :
    k0_pay16 (k0_pay5 x0) xs (ix2 r n) = dotAug x0 xs n ⟨768 + r.val, by omega⟩ := by
  unfold k0_pay16 dotAug
  rw [prod_apply]
  exact Finset.sum_congr rfl fun q _ => by rw [rows_apply xs 768 _ r q ⟨768 + r.val, by omega⟩ rfl]

end Cert.KernelIdeal.StepProd

end
-- ==== Proof.StepSum.lean ====
/-
  What a grid step adds to the accumulator, as a sum over its 2048 columns.

  The running minimum over the four products is reduced over its eight sublanes, from plus infinity: at
  column n this is the least, over ALL 1024 centres, of the centre's extended inner product with the column
  (every centre is 256 j + 8 t + s for one product j, one tile t and one sublane s). To it the step adds the
  column's squared norm, and sums over the columns.
-/
import proofs.«123310_g395136991332_cont_8to1_b_1330_16_alg».proof.Proof.StepMin
import proofs.«123310_g395136991332_cont_8to1_b_1330_16_alg».proof.Proof.StepProd
import proofs.«123310_g395136991332_cont_8to1_b_1330_16_alg».proof.Proof.Consts
import Idealize.ShloMosaic.PureOps.Reduce
import Idealize.ShloMosaic.Lib.ValueLayout

set_option maxRecDepth 16384

noncomputable section

namespace Cert.KernelIdeal.StepSum

open Idealize.ShloMosaic Idealize.ShloMosaic.ValueIdx
open Cert.KernelIdeal Cert.KernelIdeal.Gen Cert.KernelIdeal.Pieces Cert.KernelIdeal.StepMin Cert.KernelIdeal.StepProd

/-- A minimum-reduction over one axis, read at the ideal values: the fold of `min` from the accumulator's value
    over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The tiles' starting rows are the multiples of eight below 256. -/
theorem tiles_eq : tiles = (Finset.univ : Finset (Fin 32)).image (fun t => 8 * t.val) := by decide

/-- Below every tile's entry at (s, n) exactly when below the product's entry (8 t + s, n) for every tile t. -/
theorem forall_tiles (P : FVec Ideal S256x2048 .f32) (s : Fin 8) (n : Fin 2048) (y : EReal) :
    (∀ o ∈ tiles, y ≤ tileAt P s n o) ↔ ∀ t : Fin 32, y ≤ P (ix2 ⟨8 * t.val + s.val, by omega⟩ n) := by
  rw [tiles_eq, Finset.forall_mem_image]
  simp only [Finset.mem_univ, forall_true_left]
  refine forall_congr' fun t => ?_
  unfold tileAt
  rw [dif_pos (by omega)]

/-- Every centre is 256 j + 8 t + s: below the extended inner products of all centres exactly when below those
    of the centres 256 j + 8 t + s, for the four j, every tile t and every sublane s. -/
theorem forall_centres (f : Fin 1024 → EReal) (y : EReal) :
    (∀ s : Fin 8, (∀ t : Fin 32, y ≤ f ⟨8 * t.val + s.val, by omega⟩) ∧ (∀ t : Fin 32, y ≤ f ⟨256 + (8 * t.val + s.val), by omega⟩)
        ∧ (∀ t : Fin 32, y ≤ f ⟨512 + (8 * t.val + s.val), by omega⟩) ∧ (∀ t : Fin 32, y ≤ f ⟨768 + (8 * t.val + s.val), by omega⟩))
      ↔ ∀ k : Fin 1024, y ≤ f k := by
  constructor
  · intro h k
    have hk := k.isLt
    obtain ⟨h0, h1, h2, h3⟩ := h ⟨k.val % 8, Nat.mod_lt _ (by decide)⟩
    have key : ∀ (b : ℕ) (hb : b + 256 ≤ 1024) (hb8 : b % 8 = 0) (hlo : b ≤ k.val) (hhi : k.val < b + 256)
        (hh : ∀ t : Fin 32, y ≤ f ⟨b + (8 * t.val + k.val % 8), by omega⟩), y ≤ f k := by
      intro b hb hb8 hlo hhi hh
      have := hh ⟨(k.val - b) / 8, by omega⟩
      have e : (⟨b + (8 * ((k.val - b) / 8) + k.val % 8), by omega⟩ : Fin 1024) = k := Fin.ext (by
        show b + (8 * ((k.val - b) / 8) + k.val % 8) = k.val
        omega)
      rwa [e] at this
    by_cases c1 : k.val < 256
    · exact key 0 (by omega) (by omega) (by omega) (by omega) (fun t => by simpa using h0 t)
    by_cases c2 : k.val < 512
    · exact key 256 (by omega) (by omega) (by omega) (by omega) h1
    by_cases c3 : k.val < 768
    · exact key 512 (by omega) (by omega) (by omega) (by omega) h2
    · exact key 768 (by omega) (by omega) (by omega) (by omega) h3
  · intro h s
    exact ⟨fun t => h _, fun t => h _, fun t => h _, fun t => h _⟩

/-- A property of every tile's starting row, written out tile by tile. -/
theorem tiles_forall (Q : ℕ → Prop) : (∀ o ∈ tiles, Q o) ↔ Q 0 ∧ Q 8 ∧ Q 16 ∧ Q 24 ∧ Q 32 ∧ Q 40 ∧ Q 48 ∧ Q 56 ∧ Q 64 ∧ Q 72 ∧ Q 80 ∧ Q 88 ∧ Q 96 ∧ Q 104 ∧ Q 112 ∧ Q 120 ∧ Q 128 ∧ Q 136 ∧ Q 144 ∧ Q 152 ∧ Q 160 ∧ Q 168 ∧ Q 176 ∧ Q 184 ∧ Q 192 ∧ Q 200 ∧ Q 208 ∧ Q 216 ∧ Q 224 ∧ Q 232 ∧ Q 240 ∧ Q 248 := by
  simp only [tiles, Finset.mem_insert, Finset.mem_singleton, forall_eq_or_imp, forall_eq]

/-- The sublane reduction's inserted index at column n is (s, n). -/
theorem lift_rows (h : S8x2048.Reduces [0] S2048) (n : Fin 2048) (s : Fin 8) : h.lift (ix1 n) s = ix2 s n :=
  funext fun a => Fin.ext (by match a with | ⟨0, _⟩ => rfl | ⟨1, _⟩ => rfl)

/-- The squared-norm reduction's inserted index at column n is (d, n). -/
theorem lift_dims (h : S64x2048.Reduces [0] S2048) (n : Fin 2048) (d : Fin 64) : h.lift (ix1 n) d = ix2 d n :=
  funext fun a => Fin.ext (by match a with | ⟨0, _⟩ => rfl | ⟨1, _⟩ => rfl)

/-- The indices of a 1 x 1 x 2048 array are its 2048 columns. -/
def colEquiv : S1x1x2048.Idx ≃ Fin 2048 where
  toFun i := i 2
  invFun n := ix3 (0 : Fin 1) (0 : Fin 1) n
  left_inv i := funext fun a => Fin.ext (by
    have h0 : (i 0).val = 0 := by have := (i 0).isLt; simp at this; omega
    have h1 : (i 1).val = 0 := by have := (i 1).isLt; simp at this; omega
    match a with
    | ⟨0, _⟩ => exact h0.symm
    | ⟨1, _⟩ => exact h1.symm
    | ⟨2, _⟩ => rfl)
  right_inv n := rfl

/-- What a step adds to the accumulator: over its columns, the least extended inner product over all centres
    plus the column's squared norm. -/
theorem partial_apply (x0 : Vec Ideal S64x2048 .f32) (xs : Vec Ideal S1024x66 .bf16) :
    stepPartial x0 xs (ix2 0 0)
      = ∑ n : Fin 2048, ((Finset.univ : Finset (Fin 1024)).fold min (⊤ : EReal) (dotAug x0 xs n)
          + ∑ d : Fin 64, x0 (ix2 d n) * x0 (ix2 d n)) := by
  unfold stepPartial k0_pay18
  rw [broadcast_apply]
  unfold extractAt
  rw [shapeCast_apply _ _ _ (ix1 (0 : Fin 1)) (by rw [Shape.rowMajor_val_one, Shape.rowMajor_val_three]; rfl)]
  refine (Ideal.multiReduction_add_total (s := S1x1x2048) (t := S1) _ _ reduces_S1x1x2048_S1
    (fun b => by match b with | ⟨0, _⟩ => rfl) _ _ _).trans ?_
  rw [← colEquiv.symm.sum_comp]
  refine Finset.sum_congr rfl fun n _ => ?_
  rw [show colEquiv.symm n = ix3 (0 : Fin 1) (0 : Fin 1) n from rfl, shapeCast_ab_1ab_apply, addf_apply,
    shapeCast_a_1a_apply, shapeCast_a_1a_apply]
  refine congrArg₂ (· + ·) ?_ ?_
  · refine (multiReduction_minimumf_single _ _ _ _ _ _).trans ?_
    refine eq_of_forall_le_iff fun y => ?_
    rw [Finset.le_fold_min, Finset.le_fold_min]
    simp only [Finset.mem_univ, forall_true_left, Function.comp_apply]
    rw [← forall_centres (dotAug x0 xs n) y]
    refine and_congr ?_ (forall_congr' fun (s : Fin 8) => ?_)
    · show y ≤ Ideal.ofBits .f32 0x7F800000#32 ↔ y ≤ ⊤
      rw [Cert.VQ.Consts.ofBits_inf]
    · rw [lift_rows _ n s]
      simp only [k0_pay17, minimumf_apply, slice_tileAt, le_min_iff, and_assoc]
      rw [← tiles_forall (fun o => y ≤ tileAt (k0_pay16 (k0_pay5 x0) xs) s n o)]
      rw [le_minThree, forall_tiles, forall_tiles, forall_tiles, forall_tiles]
      simp only [prod0, prod1, prod2, prod3]
      rw [and_assoc, and_assoc]
  · refine (Ideal.multiReduction_add_single _ _ _ _ _ _).trans ?_
    refine Finset.sum_congr rfl fun (d : Fin 64) _ => ?_
    rw [lift_dims _ n d, mulf_apply]
    unfold k0_pay4
    rw [shapeCast_self]

end Cert.KernelIdeal.StepSum

end
-- ==== Proof.StepReal.lean ====
/-
  One grid step's contribution over finite inputs, as a real number.

  With the step's block holding rows 2048 t … 2048 t + 2047 (one row per column) and the scratch holding the
  extended centres, the extended block's column n is row 2048 t + n extended by two ones, so the extended
  inner product of centre k with column n is the real |c|^2 - 2 e.c written over 66 entries. The least of
  these over the 1024 centres, taken from the top element, is the real least; the column's sum of squares is
  the row's squared norm; and the sum of both over the 2048 columns is the step's sum.
-/
import proofs.«123310_g395136991332_cont_8to1_b_1330_16_alg».proof.Proof.StepProd
import proofs.«123310_g395136991332_cont_8to1_b_1330_16_alg».proof.Proof.Spec
import proofs.«123310_g395136991332_cont_8to1_b_1330_16_alg».proof.Proof.LibERealCast
import proofs.«123310_g395136991332_cont_8to1_b_1330_16_alg».proof.Proof.Consts

set_option maxRecDepth 16384

noncomputable section

namespace Cert.KernelIdeal.StepReal

open Idealize.ShloMosaic Idealize.ShloMosaic.ValueIdx
open Cert.KernelIdeal Cert.KernelIdeal.Gen Cert.KernelIdeal.StepProd

/-- Entry (q, n) of the extended block is entry q of row 2048 t + n extended. -/
theorem aug_real (e : Cert.VQ.Rows) (t : Fin 32) (x0 : Vec Ideal S64x2048 .f32)
    (h0 : ∀ (d : Fin 64) (n : Fin 2048), x0 (ix2 d n) = ((e (Cert.VQ.rowOf t n) d : ℝ) : EReal))
    (q : Fin 66) (n : Fin 2048) :
    k0_pay5 x0 (ix2 q n) = ((Cert.VQ.rowAug e (Cert.VQ.rowOf t n) q : ℝ) : EReal) := by
  unfold Cert.VQ.rowAug
  by_cases hq : q.val < 64
  · rw [dif_pos hq, aug_block x0 q n hq, h0]
  · rw [dif_neg hq, aug_ones x0 q n hq, Cert.VQ.Consts.ofBits_one_bf16]

/-- The extended inner product of centre k with column n is the real one. -/
theorem dotAug_real (e : Cert.VQ.Rows) (c : Cert.VQ.Centres) (t : Fin 32)
    (x0 : Vec Ideal S64x2048 .f32) (xs : Vec Ideal S1024x66 .bf16)
    (h0 : ∀ (d : Fin 64) (n : Fin 2048), x0 (ix2 d n) = ((e (Cert.VQ.rowOf t n) d : ℝ) : EReal))
    (hs : ∀ (k : Fin 1024) (q : Fin 66), xs (ix2 k q) = ((Cert.VQ.centreAug c k q : ℝ) : EReal))
    (n : Fin 2048) (k : Fin 1024) :
    dotAug x0 xs n k
      = ((∑ q : Fin 66, Cert.VQ.centreAug c k q * Cert.VQ.rowAug e (Cert.VQ.rowOf t n) q : ℝ) : EReal) := by
  unfold dotAug
  rw [← Cert.ERealCast.coe_sum]
  refine Finset.sum_congr rfl fun q _ => ?_
  rw [hs, aug_real e t x0 h0, EReal.coe_mul]

/-- A step's contribution: the sum over its 2048 columns of the least extended inner product plus the
    column's sum of squares is the step's sum, as a real. -/
theorem step_eq (e : Cert.VQ.Rows) (c : Cert.VQ.Centres) (t : Fin 32)
    (x0 : Vec Ideal Cert.KernelIdeal.S64x2048 .f32) (xs : Vec Ideal Cert.KernelIdeal.S1024x66 .bf16)
    (h0 : ∀ (d : Fin 64) (n : Fin 2048), x0 (ix2 d n) = ((e (Cert.VQ.rowOf t n) d : ℝ) : EReal))
    (hs : ∀ (k : Fin 1024) (q : Fin 66), xs (ix2 k q) = ((Cert.VQ.centreAug c k q : ℝ) : EReal)) :
    ∑ n : Fin 2048, ((Finset.univ : Finset (Fin 1024)).fold min (⊤ : EReal) (Cert.KernelIdeal.StepProd.dotAug x0 xs n)
        + ∑ d : Fin 64, x0 (ix2 d n) * x0 (ix2 d n)) = ((Cert.VQ.stepSum e c t : ℝ) : EReal) := by
  have hn : ∀ n : Fin 2048,
      (Finset.univ : Finset (Fin 1024)).fold min (⊤ : EReal) (dotAug x0 xs n)
          + ∑ d : Fin 64, x0 (ix2 d n) * x0 (ix2 d n)
        = ((Cert.VQ.leastAug e c (Cert.VQ.rowOf t n) + Cert.VQ.sqNorm e (Cert.VQ.rowOf t n) : ℝ) : EReal) := by
    intro n
    have hf : dotAug x0 xs n = fun k : Fin 1024 =>
        ((∑ q : Fin 66, Cert.VQ.centreAug c k q * Cert.VQ.rowAug e (Cert.VQ.rowOf t n) q : ℝ) : EReal) :=
      funext fun k => dotAug_real e c t x0 xs h0 hs n k
    have hsq : ∑ d : Fin 64, x0 (ix2 d n) * x0 (ix2 d n)
        = ((Cert.VQ.sqNorm e (Cert.VQ.rowOf t n) : ℝ) : EReal) := by
      unfold Cert.VQ.sqNorm
      rw [← Cert.ERealCast.coe_sum]
      refine Finset.sum_congr rfl fun d _ => ?_
      rw [h0, EReal.coe_mul]
    rw [hf, Cert.ERealCast.fold_min_top_coe Finset.univ ⟨0, Finset.mem_univ _⟩, hsq, EReal.coe_add]
    rfl
  rw [Finset.sum_congr rfl fun n _ => hn n, Cert.ERealCast.coe_sum]
  rfl

end Cert.KernelIdeal.StepReal

end
-- ==== Proof.ScratchValue.lean ====
/-
  The scratch the first step fills, read at an entry.

  From the centres' block (1024 x 64) the step builds a 1024 x 66 array: minus twice the centres, then the
  column of the centres' squared norms (the squares summed along each row), then the column of that squared
  norm less itself, laid side by side. Over finite centres, entry (k, q) is entry q of centre k extended:
  minus twice its coordinate for q below 64, its squared norm at q = 64, zero written as the squared norm
  less itself at q = 65.
-/
import proofs.«123310_g395136991332_cont_8to1_b_1330_16_alg».proof.Proof.Gen.KernelIdeal.Skeleton
import proofs.«123310_g395136991332_cont_8to1_b_1330_16_alg».proof.Proof.Spec
import proofs.«123310_g395136991332_cont_8to1_b_1330_16_alg».proof.Proof.LibERealCast
import proofs.«123310_g395136991332_cont_8to1_b_1330_16_alg».proof.Proof.Consts
import Idealize.ShloMosaic.Lib.ValueIdx
import Idealize.ShloMosaic.Lib.Pipeline.Value
import Idealize.ShloMosaic.PureOps.Ideal.Laws

set_option maxRecDepth 16384

noncomputable section

namespace Cert.KernelIdeal.ScratchValue

open Idealize.ShloMosaic Idealize.ShloMosaic.ValueIdx
open Cert.KernelIdeal Cert.KernelIdeal.Gen

/-- Three arrays of 64, 1 and 1 columns laid side by side, read at (k, q): the first for q below 64, the
    second at q = 64, the third at q = 65. -/
theorem concat3_apply (A : FVec Ideal S1024x64 .bf16) (B C : FVec Ideal S1024x1 .bf16)
    (h : Shape.Concatenates [S1024x64, S1024x1, S1024x1] S1024x66 1) (k : Fin 1024) (q : Fin 66) :
    concatenate S1024x66 1 [⟨S1024x64, A⟩, ⟨S1024x1, B⟩, ⟨S1024x1, C⟩] h (ix2 k q)
      = if hq : q.val < 64 then A (ix2 k (⟨q.val, hq⟩ : Fin 64))
        else if q.val = 64 then B (ix2 k (0 : Fin 1)) else C (ix2 k (0 : Fin 1)) := by
  by_cases hq : q.val < 64
  · rw [dif_pos hq]
    exact concatenate_apply_piece (t := S1024x66) (1 : Fin S1024x66.rank)
      [⟨S1024x64, A⟩, ⟨S1024x1, B⟩, ⟨S1024x1, C⟩] h (ix2 k q) 0 (by show 0 < 3; omega)
      S1024x64 A rfl rfl 0 rfl (ix2 k (⟨q.val, hq⟩ : Fin 64))
      (fun b => by
        match b with
        | ⟨0, _⟩ => intro _; rfl
        | ⟨1, _⟩ => intro hb; exact absurd rfl hb)
      (by show 0 + q.val = q.val; omega)
  · rw [dif_neg hq]
    by_cases h64 : q.val = 64
    · rw [if_pos h64]
      exact concatenate_apply_piece (t := S1024x66) (1 : Fin S1024x66.rank)
        [⟨S1024x64, A⟩, ⟨S1024x1, B⟩, ⟨S1024x1, C⟩] h (ix2 k q) 1 (by show 1 < 3; omega)
        S1024x1 B rfl rfl 64 rfl (ix2 k (0 : Fin 1))
        (fun b => by
          match b with
          | ⟨0, _⟩ => intro _; rfl
          | ⟨1, _⟩ => intro hb; exact absurd rfl hb)
        (by show 64 + 0 = q.val; omega)
    · rw [if_neg h64]
      have hlt := q.isLt
      exact concatenate_apply_piece (t := S1024x66) (1 : Fin S1024x66.rank)
        [⟨S1024x64, A⟩, ⟨S1024x1, B⟩, ⟨S1024x1, C⟩] h (ix2 k q) 2 (by show 2 < 3; omega)
        S1024x1 C rfl rfl 65 rfl (ix2 k (0 : Fin 1))
        (fun b => by
          match b with
          | ⟨0, _⟩ => intro _; rfl
          | ⟨1, _⟩ => intro hb; exact absurd rfl hb)
        (by show 65 + 0 = q.val; omega)

/-- The column of squared norms at row k: the sum over the 64 coordinates of centre k's squares. -/
theorem normCol_apply (c : Cert.VQ.Centres) (x1 : Vec Ideal S1024x64 .f32)
    (h1 : ∀ (k : Fin 1024) (d : Fin 64), x1 (ix2 k d) = ((c k d : ℝ) : EReal))
    (hred : S1024x64.Reduces [1] S1024) (hφ : FKind.Formats .f32)
    (hacc : (0x00000000#32 : BitVec 32) = FKind.add.neutral .f32 hφ) (hsc : S1024.ShapeCasts S1024x1)
    (k : Fin 1024) (z : Fin 1) :
    shapeCast S1024x1 (multiReduction (F := Ideal) .add [1] S1024 (mulf x1 x1) 0x00000000#32 hred hφ hacc) hsc (ix2 k z)
      = ((Cert.VQ.sqNorm c k : ℝ) : EReal) := by
  rw [shapeCast_apply _ hsc (ix2 k z) (ix1 k) (by
    rw [Shape.rowMajor_val_one, Shape.rowMajor_val_two]
    have hz : z.val = 0 := by have := z.isLt; omega
    show k.val = k.val * 1 + z.val
    omega)]
  rw [Ideal.multiReduction_add_single]
  have hl : ∀ d : Fin 64, hred.lift (ix1 k) d = ix2 k d := fun d => funext fun a => Fin.ext (by
    match a with
    | ⟨0, _⟩ => rfl
    | ⟨1, _⟩ => rfl)
  show ∑ d : Fin 64, (mulf x1 x1 : FVec Ideal S1024x64 .f32) (hred.lift (ix1 k) d) = _
  simp only [hl, mulf_apply, h1, ← EReal.coe_mul]
  rw [Cert.ERealCast.coe_sum]
  rfl

/-- Entry (k, q) of the scratch is entry q of centre k extended. -/
theorem scratch_apply (c : Cert.VQ.Centres) (x1 : Vec Ideal Cert.KernelIdeal.S1024x64 .f32)
    (h1 : ∀ (k : Fin 1024) (d : Fin 64), x1 (ix2 k d) = ((c k d : ℝ) : EReal)) (k : Fin 1024) (q : Fin 66) :
    Cert.KernelIdeal.Gen.k0_pay3 (F := Ideal) x1 (ix2 k q) = ((Cert.VQ.centreAug c k q : ℝ) : EReal) := by
  unfold k0_pay3
  dsimp only
  rw [shapeCast_self, concat3_apply]
  unfold Cert.VQ.centreAug
  by_cases hq : q.val < 64
  · rw [dif_pos hq, dif_pos hq, truncf_apply, mulf_apply, broadcast_apply, h1]
    show Ideal.ofBits .f32 0xC0000000#32 * _ = _
    rw [Cert.VQ.Consts.ofBits_neg_two, ← EReal.coe_mul]
  · rw [dif_neg hq, dif_neg hq]
    by_cases h64 : q.val = 64
    · rw [if_pos h64, if_pos h64, truncf_apply]
      exact normCol_apply c x1 h1 _ _ _ _ k 0
    · rw [if_neg h64, if_neg h64, truncf_apply, subf_apply, EReal.coe_sub]
      exact congrArg₂ (· - ·) (normCol_apply c x1 h1 _ _ _ _ k 0) (normCol_apply c x1 h1 _ _ _ _ k 0)

end Cert.KernelIdeal.ScratchValue

end
-- ==== Proof.SpecLaw.lean ====
/-
  The blocked arrangement of the vector-quantisation loss equals the row-by-row one.

  Three facts. (1) The extended inner product of a centre with a row, a sum over 66 entries, splits into
  its first 64 entries and its last two: the first 64 give minus twice the inner product, the last two give
  the centre's squared norm and zero. (2) Adding the row's squared norm, a constant over the centres,
  commutes with taking the least over the centres. (3) The map (t, j) ↦ 2048 t + j is a bijection from
  32 x 2048 onto 65536, so a double sum over the steps and their rows is a single sum over the rows.
-/
import proofs.«123310_g395136991332_cont_8to1_b_1330_16_alg».proof.Proof.Spec
import Mathlib.Algebra.BigOperators.Fin
import Mathlib.Algebra.BigOperators.Group.Finset.Defs
import Mathlib.Data.Fintype.BigOperators
import Mathlib.Data.Finset.Lattice.Fold
import Mathlib.Data.Real.Basic
import Mathlib.Tactic.Ring
import Mathlib.Tactic.Linarith

namespace Cert.VQ

/-- A sum over 66 entries is the sum over the first 64 plus the two last entries. -/
theorem sum_fin66 (f : Fin 66 → ℝ) :
    ∑ q : Fin 66, f q
      = (∑ d : Fin 64, f ⟨d.val, by omega⟩) + f ⟨64, by omega⟩ + f ⟨65, by omega⟩ := by
  rw [Fin.sum_univ_castSucc, Fin.sum_univ_castSucc]
  rfl

/-- The extended inner product of centre `k` with row `n` is |c|^2 - 2 e.c. -/
theorem augDot_eq (e : Rows) (c : Centres) (n : Fin 65536) (k : Fin 1024) :
    ∑ q : Fin 66, centreAug c k q * rowAug e n q = sqNorm c k - 2 * inner e c n k := by
  rw [sum_fin66]
  have h64 : ∀ d : Fin 64,
      centreAug c k ⟨d.val, by omega⟩ * rowAug e n ⟨d.val, by omega⟩ = -2 * (e n d * c k d) := by
    intro d
    have hd : d.val < 64 := d.isLt
    simp only [centreAug, rowAug, hd, dite_true]
    ring
  have hA : centreAug c k ⟨64, by omega⟩ * rowAug e n ⟨64, by omega⟩ = sqNorm c k := by
    simp [centreAug, rowAug]
  have hB : centreAug c k ⟨65, by omega⟩ * rowAug e n ⟨65, by omega⟩ = 0 := by
    simp [centreAug, rowAug]
  rw [Finset.sum_congr rfl (fun d _ => h64 d), hA, hB, ← Finset.mul_sum]
  unfold inner
  ring

/-- Adding a constant commutes with the least over a nonempty finite family. -/
theorem inf'_add_const {ι : Type} (s : Finset ι) (H : s.Nonempty) (g : ι → ℝ) (a : ℝ) :
    s.inf' H g + a = s.inf' H (fun i => g i + a) := by
  apply le_antisymm
  · rw [Finset.le_inf'_iff]
    intro i hi
    have := Finset.inf'_le g hi
    linarith
  · obtain ⟨i, hi, hgi⟩ := Finset.exists_mem_eq_inf' H g
    rw [hgi]
    exact Finset.inf'_le (fun i => g i + a) hi

/-- The least of |c|^2 - 2 e.c over the centres, plus |e|^2, is the least squared distance. -/
theorem leastAug_add (e : Rows) (c : Centres) (n : Fin 65536) :
    leastAug e c n + sqNorm e n = least e c n := by
  have H : (Finset.univ : Finset (Fin 1024)).Nonempty := ⟨0, Finset.mem_univ _⟩
  show Finset.univ.inf' H (fun k : Fin 1024 => ∑ q : Fin 66, centreAug c k q * rowAug e n q) + sqNorm e n
      = Finset.univ.inf' H (dist e c n)
  rw [inf'_add_const]
  congr 1
  funext k
  rw [augDot_eq]
  unfold dist
  ring

/-- The map (t, j) ↦ 2048 t + j is a bijection from 32 x 2048 onto 65536. -/
theorem rowOf_bijective :
    Function.Bijective (fun p : Fin 32 × Fin 2048 => rowOf p.1 p.2) := by
  constructor
  · rintro ⟨t, j⟩ ⟨t', j'⟩ h
    have hv : 2048 * t.val + j.val = 2048 * t'.val + j'.val := by
      simpa [rowOf] using congrArg Fin.val h
    have ht := t.isLt
    have ht' := t'.isLt
    have hj := j.isLt
    have hj' := j'.isLt
    have h1 : t.val = t'.val := by omega
    have h2 : j.val = j'.val := by omega
    exact Prod.ext (Fin.ext h1) (Fin.ext h2)
  · intro n
    have hn := n.isLt
    refine ⟨(⟨n.val / 2048, by omega⟩, ⟨n.val % 2048, by omega⟩), ?_⟩
    apply Fin.ext
    show 2048 * (n.val / 2048) + n.val % 2048 = n.val
    omega

/-- A sum over the 32 steps of the sum over each step's 2048 rows is the sum over all 65536 rows. -/
theorem sum_steps (f : Fin 65536 → ℝ) :
    ∑ t : Fin 32, ∑ j : Fin 2048, f (rowOf t j) = ∑ n : Fin 65536, f n := by
  rw [← Fintype.sum_prod_type']
  exact Fintype.sum_bijective (fun p : Fin 32 × Fin 2048 => rowOf p.1 p.2) rowOf_bijective _ _
    (fun _ => rfl)

/-- The blocked arrangement of the loss equals the row-by-row one. -/
theorem lossAug_eq_loss (e : Rows) (c : Centres) : lossAug e c = loss e c := by
  unfold lossAug loss stepSum
  have h : ∀ t : Fin 32, ∀ j : Fin 2048,
      leastAug e c (rowOf t j) + sqNorm e (rowOf t j) = least e c (rowOf t j) :=
    fun t j => leastAug_add e c (rowOf t j)
  simp only [h]
  rw [sum_steps (fun n => least e c n)]

end Cert.VQ
-- ==== Proof.KernelValue.lean ====
/-
  The kernel's result over real inputs.

  When the two argument arrays hold real numbers, each grid point's contribution to the accumulator is the
  (cast) blocked step sum of the specification: the point's block is its 2048 rows, the scratch is the extended
  centres. So after the last point the accumulator holds the sum of the 32 step sums, and its quotient by 65536
  is the blocked arrangement of the loss, which is the loss.
-/
import proofs.«123310_g395136991332_cont_8to1_b_1330_16_alg».proof.Proof.Accum
import proofs.«123310_g395136991332_cont_8to1_b_1330_16_alg».proof.Proof.StepSum
import proofs.«123310_g395136991332_cont_8to1_b_1330_16_alg».proof.Proof.StepReal
import proofs.«123310_g395136991332_cont_8to1_b_1330_16_alg».proof.Proof.ScratchValue
import proofs.«123310_g395136991332_cont_8to1_b_1330_16_alg».proof.Proof.KernelRun
import proofs.«123310_g395136991332_cont_8to1_b_1330_16_alg».proof.Proof.SpecLaw
import proofs.«123310_g395136991332_cont_8to1_b_1330_16_alg».proof.Proof.LibERealCast
import proofs.«123310_g395136991332_cont_8to1_b_1330_16_alg».proof.Proof.Consts

set_option maxRecDepth 16384

noncomputable section

namespace Cert.KernelIdeal.KernelValue

open Idealize.ShloMosaic Idealize.ShloMosaic.ValueIdx Idealize.SL.Sem
open Cert.KernelIdeal Cert.KernelIdeal.Gen Cert.VQ

variable (m : (ℓ : Loc nD τ sig) → Buf (Elt Ideal) ℓ)

/-- Point t's contribution is the specification's step sum. -/
theorem contribution_eq (c : Dev nD) (e : Rows) (cs : Centres)
    (he : ∀ (a : Fin 65536) (b : Fin 64), m ((c.tc : Thread nD τ).loc main_arg0) (ix2 a b) = ((e a b : ℝ) : EReal))
    (hc : ∀ (a : Fin 1024) (b : Fin 64), m ((c.tc : Thread nD τ).loc main_arg1) (ix2 a b) = ((cs a b : ℝ) : EReal))
    (t : Fin 32) : Accum.contribution m c t.val = ((stepSum e cs t : ℝ) : EReal) := by
  have ht : t.val < cfg0.N := lt_of_lt_of_eq t.isLt Accum.points.symm
  unfold Accum.contribution
  rw [dif_pos ht, StepSum.partial_apply]
  exact StepReal.step_eq e cs t _ _
    (fun d n => (KernelRun.rows_block m c ⟨t.val, ht⟩ d n (rowOf t n) rfl).trans (he _ _))
    (fun k q => ScratchValue.scratch_apply cs _
      (fun k d => (KernelRun.centres_block m c ⟨0, Accum.first_lt⟩ k d).trans (hc _ _)) k q)

/-- The accumulator after the last point, divided by 65536, is the loss. -/
theorem value_eq (c : Dev nD) (e : Rows) (cs : Centres)
    (he : ∀ (a : Fin 65536) (b : Fin 64), m ((c.tc : Thread nD τ).loc main_arg0) (ix2 a b) = ((e a b : ℝ) : EReal))
    (hc : ∀ (a : Fin 1024) (b : Fin 64), m ((c.tc : Thread nD τ).loc main_arg1) (ix2 a b) = ((cs a b : ℝ) : EReal)) :
    Ideal.div ((outsAt0 m c 31 KernelRun.last_lt).1 (ix2 0 0)) (Ideal.ofBits .f32 0x47800000#32)
      = ((loss e cs : ℝ) : EReal) := by
  rw [Accum.acc_after m c 31 KernelRun.last_lt, Consts.ofBits_zero, zero_add, Finset.sum_range,
    Finset.sum_congr rfl (fun t _ => contribution_eq m c e cs he hc t), Cert.ERealCast.coe_sum, Consts.ofBits_65536,
    Ideal.div_coe (by norm_num), ← EReal.coe_mul, ← lossAug_eq_loss]
  unfold lossAug
  congr 1
  ring

end Cert.KernelIdeal.KernelValue

end
-- ==== Proof.lean ====
/-
  The squared-distance loss of a vector-quantisation codebook: the kernel against its reference.

  Both programs compute, from 65536 rows and 1024 centres of dimension 64, the mean over the rows of the least
  squared distance from the row to a centre, by the expansion |e|^2 - 2 e.c + |c|^2. The reference forms the
  whole 65536 x 1024 table of distances, takes each row's minimum and the mean. The kernel walks the rows in
  32 steps of 2048, multiplies the centres, each extended by its squared norm (split into a part and the
  remainder, which is zero where no rounding happens) and doubled and negated, with the rows, each extended by
  two ones, so that a product's entry is |c|^2 - 2 e.c; it takes the least of that over the centres, adds
  |e|^2, sums over the step's rows into a scalar it carries from step to step, and divides by 65536 at the end.
  Over real inputs the two are one number: adding |e|^2 commutes with the least over the centres, and the
  extended inner product is |c|^2 - 2 e.c because a real number minus itself is zero. That last step is where
  finiteness of the centres is used; the rearrangement of the sums uses finiteness of both.

  The frames are the generated ones; the reference's is its generated run with the result dropped. The
  idealization's one rewrite (a narrowing to the sixteen-bit format and back, at the centres' squared norms)
  is the identity on the extended reals.
-/
import proofs.«123310_g395136991332_cont_8to1_b_1330_16_alg».proof.Defs
import proofs.«123310_g395136991332_cont_8to1_b_1330_16_alg».proof.Proof.Gen.Kernel
import proofs.«123310_g395136991332_cont_8to1_b_1330_16_alg».proof.Proof.Gen.Kernel.Skeleton
import proofs.«123310_g395136991332_cont_8to1_b_1330_16_alg».proof.Proof.Gen.Kernel.Launch
import proofs.«123310_g395136991332_cont_8to1_b_1330_16_alg».proof.Proof.Gen.Kernel.Points
import proofs.«123310_g395136991332_cont_8to1_b_1330_16_alg».proof.Proof.Gen.Kernel.Frame
import proofs.«123310_g395136991332_cont_8to1_b_1330_16_alg».proof.Proof.Gen.KernelIdeal
import proofs.«123310_g395136991332_cont_8to1_b_1330_16_alg».proof.Proof.Gen.KernelIdeal.Skeleton
import proofs.«123310_g395136991332_cont_8to1_b_1330_16_alg».proof.Proof.Gen.KernelIdeal.Launch
import proofs.«123310_g395136991332_cont_8to1_b_1330_16_alg».proof.Proof.Gen.KernelIdeal.Points
import proofs.«123310_g395136991332_cont_8to1_b_1330_16_alg».proof.Proof.Gen.KernelIdeal.Frame
import proofs.«123310_g395136991332_cont_8to1_b_1330_16_alg».proof.Proof.Gen.ReferenceIdeal
import proofs.«123310_g395136991332_cont_8to1_b_1330_16_alg».proof.Proof.Gen.Pre_finite_inputs
import proofs.«123310_g395136991332_cont_8to1_b_1330_16_alg».proof.Proof.Gen.ReferenceIdeal.Run
import proofs.«123310_g395136991332_cont_8to1_b_1330_16_alg».proof.Proof.Gen.ReferenceIdeal.Read
import proofs.«123310_g395136991332_cont_8to1_b_1330_16_alg».proof.Proof.FiniteInputs
import proofs.«123310_g395136991332_cont_8to1_b_1330_16_alg».proof.Proof.RefValue
import proofs.«123310_g395136991332_cont_8to1_b_1330_16_alg».proof.Proof.KernelRun
import proofs.«123310_g395136991332_cont_8to1_b_1330_16_alg».proof.Proof.KernelValue
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: narrowing the centres' squared norms and widening them back is the
    identity on the extended reals. -/
theorem preserves : Cert.preserves_Kernel_KernelIdeal :=
  IdealRules.truncf_extf.statement Cert.KernelIdeal.S1024x1 .f32 .bf16

/-- From finite inputs both programs end at the loss of the real arrays the inputs hold: the kernel by its
    run and the value of its accumulator, the reference by its run and the value of its last operation. -/
theorem algebraic : Cert.algebraic_KernelIdeal_ReferenceIdeal := by
  intro m ρ m' ρ' hpre hagree
  refine ⟨fun c => Cert.ReferenceIdeal.Read.val_main_v16 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.KernelRun.run_value m ρ)
    obtain ⟨⟨e, he⟩, ⟨cs, hc⟩⟩ := Cert.VQ.real_of_finite_inputs _ _ (hpre c)
    refine ⟨(h c).1.trans ?_, (h c).2⟩
    refine Eq.trans ?_ (Cert.VQ.refValue_eq e cs _ _ he hc).symm
    funext _
    exact Cert.KernelIdeal.KernelValue.value_eq m c e cs he hc
  · refine (θ_run Cert.ReferenceIdeal.defs _ _).mono (fun r h c => ⟨(h c).1.trans ?_, (h c).2⟩)
      (Cert.ReferenceIdeal.Value.run (F := Ideal) m' ρ')
    beta_reduce
    rw [Cert.ReferenceIdeal.Read.val_main_v16_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
